-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S256x40 .f32) (main_arg5 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40 .f32 := Host.absf main_arg4
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : FVec F S128x256 .f32) (main_arg2 : FVec F S128x256 .f32) (main_arg3 : FVec F S256 .f32) (main_arg4 : FVec F S256x40 .f32) (main_arg5 : FVec F S40 .f32) (main_arg6 : IVec S1600000 32) (main_arg7 : IVec S1600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x128 : Shape := ⟨2, ![100000, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x2 : Shape := ⟨2, ![100000, 2]⟩
abbrev S1x256 : Shape := ⟨2, ![1, 256]⟩
abbrev S25x64x256 : Shape := ⟨3, ![25, 64, 256]⟩
abbrev S25x1x64 : Shape := ⟨3, ![25, 1, 64]⟩
abbrev S4000x128 : Shape := ⟨2, ![4000, 128]⟩
abbrev S4000x2 : Shape := ⟨2, ![4000, 2]⟩
abbrev S1x64x256 : Shape := ⟨3, ![1, 64, 256]⟩
abbrev S1x1x64 : Shape := ⟨3, ![1, 1, 64]⟩
abbrev S4000x1 : Shape := ⟨2, ![4000, 1]⟩
abbrev S4000x256 : Shape := ⟨2, ![4000, 256]⟩
abbrev S4000x64 : Shape := ⟨2, ![4000, 64]⟩
abbrev S64 : Shape := ⟨1, ![64]⟩
abbrev S1x64 : Shape := ⟨2, ![1, 64]⟩
abbrev S64x256 : Shape := ⟨2, ![64, 256]⟩
abbrev S64x1 : Shape := ⟨2, ![64, 1]⟩
abbrev S64x40 : Shape := ⟨2, ![64, 40]⟩
abbrev S1x40 : Shape := ⟨2, ![1, 40]⟩

abbrev nBuf : Space → Nat
  | .hbm => 49
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1600000, .i32⟩
  | .hbm, ⟨7, _⟩ => ⟨S1600000, .i32⟩
  | .hbm, ⟨8, _⟩ => ⟨S100000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S100000x2, .f32⟩
  | .hbm, ⟨32, _⟩ => ⟨S1x256, .f32⟩
  | .hbm, ⟨33, _⟩ => ⟨S25x64x256, .f32⟩
  | .hbm, ⟨34, _⟩ => ⟨S25x1x64, .f32⟩
  | .hbm, ⟨35, _⟩ => ⟨S_, .f32⟩
  | .hbm, ⟨36, _⟩ => ⟨S64x256, .f32⟩
  | .hbm, ⟨37, _⟩ => ⟨S_, .f32⟩
  | .hbm, ⟨38, _⟩ => ⟨S1x64, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S64x256, .f32⟩
  | .hbm, ⟨44, _⟩ => ⟨S64x256, .f32⟩
  | .hbm, ⟨45, _⟩ => ⟨S64x40, .f32⟩
  | .hbm, ⟨46, _⟩ => ⟨S1x40, .f32⟩
  | .hbm, ⟨47, _⟩ => ⟨S64x40, .f32⟩
  | .hbm, ⟨48, _⟩ => ⟨S64x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x2, .f32⟩
  | .local _ .vmem, ⟨5, _⟩ => ⟨S4000x2, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S1x64x256, .f32⟩
  | .local _ .vmem, ⟨10, _⟩ => ⟨S1x64x256, .f32⟩
  | .local _ .vmem, ⟨11, _⟩ => ⟨S1x1x64, .f32⟩
  | .local _ .vmem, ⟨12, _⟩ => ⟨S1x1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_cst_3 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  iota_S4000x64_d1_w32 : S4000x64.Iotas .tc 32 [1]
  broadcasts_S4000x1_S4000x64 : S4000x1.Broadcasts S4000x64
  natLt_1_32 : 1 < 32
  reduces_S4000x64_S64 : S4000x64.Reduces [0] S64
  shapeCasts_S64_S1x64 : S64.ShapeCasts S1x64
  shapeCasts_S64x256_S1x64x256 : S64x256.ShapeCasts S1x64x256
  inb_S1x64x256_S1x64x256_0_0_0 : ∀ a, (![0, 0, 0] : Fin 3 → Nat) a + S1x64x256.size a ≤ S1x64x256.size a
  h_S1x64x256 : 0 < S1x64x256.numel
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S25x64x256_S64x256_d0 : S25x64x256.ReducesTo [0] S64x256
  h_S_ : 0 < S_.numel
  reducesTo_S25x1x64_S1x64_d0 : S25x1x64.ReducesTo [0] S1x64
  shapeCasts_S1x64_S64x1 : S1x64.ShapeCasts S64x1
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S40_S1x40_1 : S40.BroadcastsInDim S1x40 (![1] : Fin 1 → Fin S1x40.rank)
  bcast_S1x40_S64x40_0_1 : S1x40.BroadcastsInDim S64x40 (![0, 1] : Fin 2 → Fin S64x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x256_S4000x256_1_0_0_1_n_n_wf : DotDims.WF S4000x128 S128x256 S4000x256 [1] [0] [0] [1] [] []
  dot_S4000x64_S4000x256_S64x256_0_0_1_1_n_n_wf : DotDims.WF S4000x64 S4000x256 S64x256 [0] [0] [1] [1] [] []
  dot_S64x256_S256x40_S64x40_1_0_0_1_n_n_wf : DotDims.WF S64x256 S256x40 S64x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S100000x2.size a
  hwx0_2 : ∀ i : grid0.Coords, EltTy.bits .f32 = 32 ∨ (Rect.block (s := S100000x2) S4000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x256.size a ≤ S25x64x256.size a
  hwx0_6 : ∀ i : grid0.Coords, EltTy.bits .f32 = 32 ∨ (Rect.block (s := S25x64x256) S1x64x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S25x1x64.size a
  hwx0_7 : ∀ i : grid0.Coords, EltTy.bits .f32 = 32 ∨ (Rect.block (s := S25x1x64) S1x1x64.size (cc0_transform_7 i) (hinb0_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x64_S4000x256_S64x256_0_0_1_1_n_n : DotDims S4000x64 S4000x256 S64x256 where
  lhsContracting := [0]
  rhsContracting := [0]
  lhsNonContracting := [1]
  rhsNonContracting := [1]
  lhsBatch := []
  rhsBatch := []
  wf := dot_S4000x64_S4000x256_S64x256_0_0_1_1_n_n_wf
def dot_S64x256_S256x40_S64x40_1_0_0_1_n_n : DotDims S64x256 S256x40 S64x40 where
  lhsContracting := [1]
  rhsContracting := [0]
  lhsNonContracting := [0]
  rhsNonContracting := [1]
  lhsBatch := []
  rhsBatch := []
  wf := dot_S64x256_S256x40_S64x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S1x64x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x256 : Shape := ⟨2, ![100000, 256]⟩
abbrev S1x256 : Shape := ⟨2, ![1, 256]⟩
abbrev S64 : Shape := ⟨1, ![64]⟩
abbrev S64x256 : Shape := ⟨2, ![64, 256]⟩
abbrev S64x1 : Shape := ⟨2, ![64, 1]⟩
abbrev S64x40 : Shape := ⟨2, ![64, 40]⟩
abbrev S1x40 : Shape := ⟨2, ![1, 40]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1600000, .i32⟩
  | .hbm, ⟨7, _⟩ => ⟨S1600000, .i32⟩
  | .hbm, ⟨8, _⟩ => ⟨S100000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x256, .f32⟩
  | .hbm, ⟨35, _⟩ => ⟨S100000x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000, .f32⟩
  | .hbm, ⟨45, _⟩ => ⟨S_, .f32⟩
  | .hbm, ⟨46, _⟩ => ⟨S64, .f32⟩
  | .hbm, ⟨47, _⟩ => ⟨S100000x1, .i32⟩
  | .hbm, ⟨48, _⟩ => ⟨S64, .f32⟩
  | .hbm, ⟨49, _⟩ => ⟨S_, .f32⟩
  | .hbm, ⟨50, _⟩ => ⟨S64x256, .f32⟩
  | .hbm, ⟨51, _⟩ => ⟨S100000x1, .i32⟩
  | .hbm, ⟨52, _⟩ => ⟨S64x256, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64x1, .f32⟩
  | .hbm, ⟨57, _⟩ => ⟨S64x256, .f32⟩
  | .hbm, ⟨58, _⟩ => ⟨S64x256, .f32⟩
  | .hbm, ⟨59, _⟩ => ⟨S64x40, .f32⟩
  | .hbm, ⟨60, _⟩ => ⟨S1x40, .f32⟩
  | .hbm, ⟨61, _⟩ => ⟨S64x40, .f32⟩
  | .hbm, ⟨62, _⟩ => ⟨S64x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S40_S1x40_1 : S40.BroadcastsInDim S1x40 (![1] : Fin 1 → Fin S1x40.rank)
  bcast_S1x40_S64x40_0_1 : S1x40.BroadcastsInDim S64x40 (![0, 1] : Fin 2 → Fin S64x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  scatter_S64_S100000x1_S100000_n_0_0_1_wf : ScatterDims.WF S64 S100000x1 S100000 [] [0] [0] 1
  scatter_S64x256_S100000x1_S100000x256_1_0_0_1_wf : ScatterDims.WF S64x256 S100000x1 S100000x256 [1] [0] [0] 1
  dot_S64x256_S256x40_S64x40_1_0_0_1_n_n_wf : DotDims.WF S64x256 S256x40 S64x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def dot_S64x256_S256x40_S64x40_1_0_0_1_n_n : DotDims S64x256 S256x40 S64x40 where
  lhsContracting := [1]
  rhsContracting := [0]
  lhsNonContracting := [0]
  rhsNonContracting := [1]
  lhsBatch := []
  rhsBatch := []
  wf := dot_S64x256_S256x40_S64x40_1_0_0_1_n_n_wf

class Facts : Prop extends Facts₀ where

variable [Facts]
-- ==== Proof.Spec.lean ====
/-
  The mathematics both programs compute, written once over the extended reals.

  Nodes n < 100000 carry features h n k; agg n k is the sum of the features of the in-neighbours of n
  and deg n their number.  The hidden activation of node n is
    hidden n j = max (sum_k h n k * Ws k j + sum_k (agg n k / max (deg n) 1) * Wn k j + b j) 0.
  Every node belongs to a graph gid n; graph g < 64 collects the nodes with gid n = g.  The pooled
  numerator of graph g is the sum of hidden n j over its nodes, count g their number, and the result is
    result g c = sum_j (pooledNum g j / max (count g) 1) * Wp j c + bp c.
  Also here: a sum over the 100000 nodes is the sum over 25 tiles of 4000 rows, and converting a 32-bit
  integer to an extended real and truncating it back gives the integer again.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Sage

open Idealize.ShloMosaic Idealize.ShloMosaic.ValueIdx

/-- The float pattern of 1.0, read at the extended reals. -/
abbrev oneF : EReal := Ideal.ofBits .f32 0x3F800000#32
/-- The float pattern of 0.0, read at the extended reals. -/
abbrev zeroF : EReal := Ideal.ofBits .f32 0x00000000#32

/-- The hidden activation of node n, feature j. -/
def hidden (h agg : (⟨2, ![100000, 128]⟩ : Shape).Idx → EReal) (deg : (⟨1, ![100000]⟩ : Shape).Idx → EReal)
    (Ws Wn : (⟨2, ![128, 256]⟩ : Shape).Idx → EReal) (b : (⟨1, ![256]⟩ : Shape).Idx → EReal)
    (n : Fin 100000) (j : Fin 256) : EReal :=
  max (((∑ k : Fin 128, h (ix2 n k) * Ws (ix2 k j))
      + ∑ k : Fin 128, Ideal.div (agg (ix2 n k)) (max (deg (ix1 n)) oneF) * Wn (ix2 k j)) + b (ix1 j)) zeroF

/-- Node n belongs to graph g: its graph id, read signed, is g. -/
abbrev inGraph (gid : (⟨1, ![100000]⟩ : Shape).Idx → BitVec 32) (n : Fin 100000) (g : Fin 64) : Prop :=
  (gid (ix1 n)).toInt = (g.val : ℤ)

/-- The sum of a per-node quantity over the nodes of graph g. -/
def pooledNum (hid : Fin 100000 → Fin 256 → EReal) (gid : (⟨1, ![100000]⟩ : Shape).Idx → BitVec 32) (g : Fin 64) (j : Fin 256) : EReal :=
  ∑ n : Fin 100000, if inGraph gid n g then hid n j else 0

/-- The number of nodes of graph g. -/
def count (gid : (⟨1, ![100000]⟩ : Shape).Idx → BitVec 32) (g : Fin 64) : EReal :=
  ∑ n : Fin 100000, if inGraph gid n g then (1 : EReal) else 0

/-- The prediction for graph g, class c. -/
def result (hid : Fin 100000 → Fin 256 → EReal) (gid : (⟨1, ![100000]⟩ : Shape).Idx → BitVec 32)
    (Wp : (⟨2, ![256, 40]⟩ : Shape).Idx → EReal) (bp : (⟨1, ![40]⟩ : Shape).Idx → EReal) (g : Fin 64) (c : Fin 40) : EReal :=
  (∑ j : Fin 256, Ideal.div (pooledNum hid gid g j) (max (count gid g) oneF) * Wp (ix2 j c)) + bp (ix1 c)

/-- Row r of tile t is node 4000 t + r. -/
def row (t : Fin 25) (r : Fin 4000) : Fin 100000 := ⟨t.val * 4000 + r.val, by have := t.isLt; have := r.isLt; omega⟩

/-- A sum over the nodes is the sum over the tiles of the sums over each tile's rows. -/
theorem sum_tiles {M : Type*} [AddCommMonoid M] (f : Fin 100000 → M) :
    ∑ t : Fin 25, ∑ r : Fin 4000, f (row t r) = ∑ n : Fin 100000, f n := by
  rw [← Fintype.sum_prod_type']
  refine Fintype.sum_equiv (finProdFinEquiv (m := 25) (n := 4000)) _ _ (fun x => ?_)
  congr 1
  apply Fin.ext
  simp [row, finProdFinEquiv]
  omega

/-- The pattern of 1.0 denotes one. -/
theorem oneF_eq : oneF = 1 := IdealRules.sign_bit.ideal_onePat .f32

/-- The pattern of 0.0 denotes zero. -/
theorem zeroF_eq : zeroF = 0 := Ideal.ofBits_zero_f32

/-- A 32-bit integer made an extended real and truncated back is itself. -/
theorem fptosi_sitofp (b : BitVec 32) : Ideal.fptosi 32 (((b.toInt : ℝ)) : EReal) = b := by
  unfold Ideal.fptosi
  have h1 := BitVec.toInt_lt (x := b)
  have h2 := BitVec.le_toInt (x := b)
  show BitVec.ofInt 32 (max _ (min _ (if (0:ℝ) ≤ (b.toInt : ℝ) then ⌊(b.toInt : ℝ)⌋ else ⌈(b.toInt : ℝ)⌉))) = b
  rw [Int.floor_intCast, Int.ceil_intCast, ite_self]
  have : max (-((2 ^ (32 - 1) : Nat) : Int)) (min (((2 ^ (32 - 1) : Nat) : Int) - 1) b.toInt) = b.toInt := by
    simp at h1 h2 ⊢
    omega
  rw [this]
  exact BitVec.ofInt_toInt

/-- The word of g < 64 reads g signed. -/
theorem toInt_ofNat_small (g : Fin 64) : (BitVec.ofNat 32 g.val).toInt = (g.val : ℤ) := by
  have hg := g.isLt
  rw [BitVec.toInt_eq_toNat_cond, BitVec.toNat_ofNat]
  have h : g.val % 2 ^ 32 = g.val := Nat.mod_eq_of_lt (by omega)
  rw [h, if_pos (by omega)]

/-- A 32-bit word equals the word of g < 64 exactly when it reads g signed. -/
theorem eq_ofNat_iff (b : BitVec 32) (g : Fin 64) : b = BitVec.ofNat 32 g.val ↔ b.toInt = (g.val : ℤ) := by
  constructor
  · rintro rfl
    exact toInt_ofNat_small g
  · intro h
    apply BitVec.eq_of_toInt_eq
    rw [h, toInt_ofNat_small]

end Cert.Sage

end
-- ==== Proof.AggDeg.lean ====
/-
  The neighbour sums and the in-degrees are computed by the same host operations in both programs: the kernel's
  arrays, as its region finds them, are the reference's stages of the same arguments.
-/
import proofs.«415320_j45707041964681_2_alg».proof.Proof.Gen.KernelIdeal.Frame
import proofs.«415320_j45707041964681_2_alg».proof.Proof.Gen.ReferenceIdeal.Read
import Idealize.ShloMosaic.Lib.StableHlo.Run

noncomputable section

open scoped BigOperators
open Idealize.ShloMosaic Idealize.ShloMosaic.TcCoe Idealize.ShloMosaic.ValueIdx Idealize.SL.Sem

namespace Cert.Sage.AggDeg

open Cert.KernelIdeal Cert.KernelIdeal.Gen

variable (m : (ℓ : Loc nD τ sig) → Buf (Elt Ideal) ℓ)

/-- The in-degrees the kernel's region finds are the reference's scatter of ones by destination. -/
theorem deg_eq (c : Dev nD) :
    (V m c main_v3 : S100000.Idx → EReal) = Cert.ReferenceIdeal.Read.val_main_v3 (F := Ideal) (m ((c : Thread nD τ).loc main_arg7)) := by
  show StableHlo.after hostOps0 (fun b => m (c, b)) (Proc.devRef .tc main_v3) = _
  after_results
  rfl

set_option maxHeartbeats 4000000 in
/-- The neighbour sums the kernel's region finds are the reference's scatter of the gathered feature rows. -/
theorem agg_eq (c : Dev nD) :
    (V m c main_v13 : S100000x128.Idx → EReal) = Cert.ReferenceIdeal.Read.val_main_v13 (F := Ideal) (m ((c : Thread nD τ).loc main_arg0))
      (m ((c : Thread nD τ).loc main_arg6)) (m ((c : Thread nD τ).loc main_arg7)) := by
  show StableHlo.after hostOps0 (fun b => m (c, b)) (Proc.devRef .tc main_v13) = _
  after_results
  rfl

end Cert.Sage.AggDeg

end
-- ==== Proof.Scatter.lean ====
/-
  The reference's two accumulating scatters by graph id, read at one element: the element the operand holds there
  plus the sum, over all 100000 nodes, of the node's update where the node's id, read signed, names that row.
  An id outside 0..63 names no row and its update is dropped.
-/
import proofs.«415320_j45707041964681_2_alg».proof.Proof.Gen.ReferenceIdeal
import Idealize.ShloMosaic.PureOps.Ideal
import Idealize.ShloMosaic.PureOps.Ideal.Laws
import Idealize.ShloMosaic.Lib.ValueIdx

noncomputable section

open scoped BigOperators
open Idealize.ShloMosaic Idealize.ShloMosaic.TcCoe Idealize.ShloMosaic.ValueIdx Idealize.SL.Sem

namespace Cert.Sage.Scatter

open Cert.ReferenceIdeal Cert.ReferenceIdeal.Gen

/-- An update index lands on operand index i exactly when, on every axis, start plus window coordinate is i's coordinate. -/
private theorem resultIdx?_eq_some_iff {s si u : Shape} (d : ScatterDims s si u) {w : Nat} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq]
    constructor
    · intro hh a
      rw [← hh]
      exact (Int.toNat_of_nonneg (h a).1).symm
    · intro hh
      funext a
      apply Fin.ext
      show (d.start j idx a + d.window j a).toNat = (i a).val
      rw [hh a]
      exact Int.toNat_natCast _
  · rename_i h
    constructor
    · intro hh
      cases hh
    · intro hh
      exfalso
      apply h
      intro a
      rw [hh a]
      exact ⟨Int.natCast_nonneg _, by exact_mod_cast (i a).isLt⟩

/-- The dimension numbers of the scatter of rows. -/
private abbrev dR := scatter_S64x256_S100000x1_S100000x256_1_0_0_1

/-- The start index of update row n is read at row n of the index array. -/
private theorem siIdx_R (n : Fin 100000) (j' : Fin 256) (c : Fin dR.scatterDimsToOperandDims.length) :
    dR.siIdx (ix2 n j') c = ix2 n (0 : Fin 1) := by
  funext b
  match b with
  | ⟨0, _⟩ =>
    simp only [ScatterDims.siIdx]
    rw [dif_neg (by decide)]
    apply Fin.ext
    rfl
  | ⟨1, _⟩ =>
    simp only [ScatterDims.siIdx]
    rw [dif_pos (by decide)]
    apply Fin.ext
    have := c.isLt
    change c.val < 1 at this
    change c.val = 0
    omega

private theorem start_R0 (n : Fin 100000) (j' : Fin 256) (idx : IVec S100000x1 32) :
    dR.start (ix2 n j') idx (0 : Fin 2) = (idx (ix2 n (0 : Fin 1))).toInt := by
  unfold ScatterDims.start
  rw [dif_pos (by decide), siIdx_R]

private theorem start_R1 (n : Fin 100000) (j' : Fin 256) (idx : IVec S100000x1 32) :
    dR.start (ix2 n j') idx (1 : Fin 2) = 0 := by
  unfold ScatterDims.start
  rw [dif_neg (by decide)]

private theorem window_R0 (n : Fin 100000) (j' : Fin 256) :
    dR.window (ix2 n j') (0 : Fin 2) = 0 := by
  unfold ScatterDims.window
  rw [dif_neg (by decide)]

private theorem window_R1 (n : Fin 100000) (j' : Fin 256) :
    dR.window (ix2 n j') (1 : Fin 2) = j'.val := by
  unfold ScatterDims.window
  rw [dif_pos (by decide)]
  rfl

/-- Update element (n, j') lands on (g, j) exactly when row n's id reads g and the columns agree. -/
private theorem resultIdx?_R (n : Fin 100000) (j' : Fin 256) (idx : IVec S100000x1 32) (g : Fin 64) (j : Fin 256) :
    dR.resultIdx? (ix2 n j') idx = some (ix2 g j) ↔ (idx (ix2 n (0 : Fin 1))).toInt = (g.val : ℤ) ∧ j' = j := by
  rw [resultIdx?_eq_some_iff]
  constructor
  · intro h
    have h0 := h (0 : Fin 2)
    have h1 := h (1 : Fin 2)
    rw [start_R0, window_R0] at h0
    rw [start_R1, window_R1] at h1
    refine ⟨by simpa using h0, ?_⟩
    apply Fin.ext
    have : ((j'.val : ℤ)) = (j.val : ℤ) := by simpa using h1
    exact_mod_cast this
  · rintro ⟨h0, rfl⟩ a
    match a with
    | ⟨0, _⟩ =>
      show dR.start (ix2 n j') idx (0 : Fin 2) + dR.window (ix2 n j') (0 : Fin 2) = _
      rw [start_R0, window_R0, h0]
      simp
    | ⟨1, _⟩ =>
      show dR.start (ix2 n j') idx (1 : Fin 2) + dR.window (ix2 n j') (1 : Fin 2) = _
      rw [start_R1, window_R1]
      simp

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- The dimension numbers of the scatter of single entries. -/
private abbrev dC := scatter_S64_S100000x1_S100000_n_0_0_1

/-- The start index of update entry n is read at row n of the index array. -/
private theorem siIdx_C (n : Fin 100000) (c : Fin dC.scatterDimsToOperandDims.length) :
    dC.siIdx (ix1 n) c = ix2 n (0 : Fin 1) := by
  funext b
  match b with
  | ⟨0, _⟩ =>
    simp only [ScatterDims.siIdx]
    rw [dif_neg (by decide)]
    apply Fin.ext
    rfl
  | ⟨1, _⟩ =>
    simp only [ScatterDims.siIdx]
    rw [dif_pos (by decide)]
    apply Fin.ext
    have := c.isLt
    change c.val < 1 at this
    change c.val = 0
    omega

private theorem start_C0 (n : Fin 100000) (idx : IVec S100000x1 32) :
    dC.start (ix1 n) idx (0 : Fin 1) = (idx (ix2 n (0 : Fin 1))).toInt := by
  unfold ScatterDims.start
  rw [dif_pos (by decide), siIdx_C]

private theorem window_C0 (n : Fin 100000) :
    dC.window (ix1 n) (0 : Fin 1) = 0 := by
  unfold ScatterDims.window
  rw [dif_neg (by decide)]

/-- Update entry n lands on g exactly when entry n's id reads g. -/
private theorem resultIdx?_C (n : Fin 100000) (idx : IVec S100000x1 32) (g : Fin 64) :
    dC.resultIdx? (ix1 n) idx = some (ix1 g) ↔ (idx (ix2 n (0 : Fin 1))).toInt = (g.val : ℤ) := by
  rw [resultIdx?_eq_some_iff]
  constructor
  · intro h
    have h0 := h (0 : Fin 1)
    rw [start_C0, window_C0] at h0
    simpa using h0
  · intro h0 a
    match a with
    | ⟨0, _⟩ =>
      show dC.start (ix1 n) idx (0 : Fin 1) + dC.window (ix1 n) (0 : Fin 1) = _
      rw [start_C0, window_C0, h0]
      simp

private theorem sum_C (idx : IVec S100000x1 32) (upd : S100000.Idx → EReal) (g : Fin 64) :
    ∑ j' ∈ Finset.univ.filter (fun j' => dC.resultIdx? j' idx = some (ix1 g)), upd j'
      = ∑ n : Fin 100000, if (idx (ix2 n (0 : Fin 1))).toInt = (g.val : ℤ) then upd (ix1 n) else 0 := by
  rw [Finset.sum_filter, sum_idx1]
  refine Finset.sum_congr rfl fun n _ => ?_
  simp only [resultIdx?_C]

private theorem sum_R (idx : IVec S100000x1 32) (upd : S100000x256.Idx → EReal) (g : Fin 64) (j : Fin 256) :
    ∑ j' ∈ Finset.univ.filter (fun j' => dR.resultIdx? j' idx = some (ix2 g j)), upd j'
      = ∑ n : Fin 100000, if (idx (ix2 n (0 : Fin 1))).toInt = (g.val : ℤ) then upd (ix2 n j) else 0 := by
  rw [Finset.sum_filter, sum_idx2]
  refine Finset.sum_congr rfl fun n _ => ?_
  simp only [resultIdx?_R]
  by_cases hn : (idx (ix2 n (0 : Fin 1))).toInt = (g.val : ℤ)
  · simp only [hn, true_and, if_true]
    rw [Finset.sum_ite_eq']
    simp
  · simp [hn]

/-- Row g, column j of the scatter of the rows of upd by idx into x: update row n lands on row g exactly when idx n, read signed, is g. -/
theorem scatter_rows_apply (x : S64x256.Idx → EReal) (idx : IVec S100000x1 32) (upd : S100000x256.Idx → EReal) (g : Fin 64) (j : Fin 256) :
    Ideal.hostScatterAdd scatter_S64x256_S100000x1_S100000x256_1_0_0_1 x idx upd (ix2 g j)
      = x (ix2 g j) + ∑ n : Fin 100000, if (idx (ix2 n (0 : Fin 1))).toInt = (g.val : ℤ) then upd (ix2 n j) else 0 := by
  rw [← sum_R]
  rfl

/-- Element g of the scatter of the entries of upd by idx into x. -/
theorem scatter_count_apply (x : S64.Idx → EReal) (idx : IVec S100000x1 32) (upd : S100000.Idx → EReal) (g : Fin 64) :
    Ideal.hostScatterAdd scatter_S64_S100000x1_S100000_n_0_0_1 x idx upd (ix1 g)
      = x (ix1 g) + ∑ n : Fin 100000, if (idx (ix2 n (0 : Fin 1))).toInt = (g.val : ℤ) then upd (ix1 n) else 0 := by
  rw [← sum_C]
  rfl

end Cert.Sage.Scatter

end
-- ==== Proof.RefValue.lean ====
/-
  The reference's result read at one element: the specification's result, with the neighbour sums and in-degrees
  the reference's own scatters.
-/
import proofs.«415320_j45707041964681_2_alg».proof.Proof.Gen.ReferenceIdeal.Read
import proofs.«415320_j45707041964681_2_alg».proof.Proof.Spec
import proofs.«415320_j45707041964681_2_alg».proof.Proof.Scatter
import Idealize.ShloMosaic.PureOps.Ideal.Laws
import Idealize.ShloMosaic.Lib.ValueIdx

noncomputable section

open scoped BigOperators
open Idealize.ShloMosaic Idealize.ShloMosaic.TcCoe Idealize.ShloMosaic.ValueIdx Idealize.SL.Sem

namespace Cert.Sage.RefValue

open Cert.ReferenceIdeal Cert.ReferenceIdeal.Gen Cert.ReferenceIdeal.Read Cert.Sage

/-! ## The activation of one node -/

/-- The divisor of the neighbour mean at node n, read at any of the 128 columns it is spread over: the larger of the
    node's in-degree and one. -/
private theorem v17_at (x7 : (⟨S1600000, .i32⟩ : BufTy).Contents (Elt Ideal)) (n : Fin 100000) (k : Fin 128) :
    val_main_v17 (F := Ideal) x7 (ix2 n k) = max (val_main_v3 (F := Ideal) x7 (ix1 n)) oneF := by
  have e : idx_main_v16 (idx_main_v17 (ix2 n k)) = ix1 n :=
    funext fun a => match a with | ⟨0, _⟩ => rfl
  rw [val_main_v17_apply, val_main_v16_apply, e, val_main_v15_apply, val_main_v14_apply, val_main_cst_3_apply]
  rfl

/-- The neighbour mean at node n, input feature k. -/
private theorem v18_at (x0 : (⟨S100000x128, .f32⟩ : BufTy).Contents (Elt Ideal)) (x6 x7 : (⟨S1600000, .i32⟩ : BufTy).Contents (Elt Ideal)) (n : Fin 100000) (k : Fin 128) :
    val_main_v18 (F := Ideal) x0 x6 x7 (ix2 n k)
      = Ideal.div (val_main_v13 (F := Ideal) x0 x6 x7 (ix2 n k)) (max (val_main_v3 (F := Ideal) x7 (ix1 n)) oneF) := by
  rw [val_main_v18_apply, v17_at]
  rfl

/-- The self term: the node's features against the self weights. -/
private theorem v19_at (x0 : (⟨S100000x128, .f32⟩ : BufTy).Contents (Elt Ideal)) (x1 : (⟨S128x256, .f32⟩ : BufTy).Contents (Elt Ideal)) (n : Fin 100000) (j : Fin 256) :
    val_main_v19 (F := Ideal) x0 x1 (ix2 n j) = ∑ k : Fin 128, x0 (ix2 n k) * x1 (ix2 k j) := by
  rw [val_main_v19_apply]
  refine Finset.sum_congr rfl fun k _ => ?_
  have el : lidx_main_v19 (ix2 n j) k = ix2 n k :=
    funext fun a => match a with | ⟨0, _⟩ => rfl | ⟨1, _⟩ => rfl
  have er : ridx_main_v19 (ix2 n j) k = ix2 k j :=
    funext fun a => match a with | ⟨0, _⟩ => rfl | ⟨1, _⟩ => rfl
  rw [el, er]

/-- The neighbour term: the node's neighbour mean against the neighbour weights. -/
private theorem v20_at (x0 : (⟨S100000x128, .f32⟩ : BufTy).Contents (Elt Ideal)) (x2 : (⟨S128x256, .f32⟩ : BufTy).Contents (Elt Ideal)) (x6 x7 : (⟨S1600000, .i32⟩ : BufTy).Contents (Elt Ideal)) (n : Fin 100000) (j : Fin 256) :
    val_main_v20 (F := Ideal) x0 x2 x6 x7 (ix2 n j)
      = ∑ k : Fin 128, Ideal.div (val_main_v13 (F := Ideal) x0 x6 x7 (ix2 n k))
          (max (val_main_v3 (F := Ideal) x7 (ix1 n)) oneF) * x2 (ix2 k j) := by
  rw [val_main_v20_apply]
  refine Finset.sum_congr rfl fun k _ => ?_
  have el : lidx_main_v20 (ix2 n j) k = ix2 n k :=
    funext fun a => match a with | ⟨0, _⟩ => rfl | ⟨1, _⟩ => rfl
  have er : ridx_main_v20 (ix2 n j) k = ix2 k j :=
    funext fun a => match a with | ⟨0, _⟩ => rfl | ⟨1, _⟩ => rfl
  rw [el, er, v18_at]

/-- The bias spread over the nodes, read at node n, feature j. -/
private theorem v23_at (x3 : (⟨S256, .f32⟩ : BufTy).Contents (Elt Ideal)) (n : Fin 100000) (j : Fin 256) :
    val_main_v23 (F := Ideal) x3 (ix2 n j) = x3 (ix1 j) := by
  have e : idx_main_v22 (idx_main_v23 (ix2 n j)) = ix1 j :=
    funext fun a => match a with | ⟨0, _⟩ => rfl
  rw [val_main_v23_apply, val_main_v22_apply, e]

/-- The reference's activation at node n, feature j, is the specification's hidden activation. -/
private theorem hidden_row (x0 : (⟨S100000x128, .f32⟩ : BufTy).Contents (Elt Ideal)) (x1 x2 : (⟨S128x256, .f32⟩ : BufTy).Contents (Elt Ideal)) (x3 : (⟨S256, .f32⟩ : BufTy).Contents (Elt Ideal)) (x6 x7 : (⟨S1600000, .i32⟩ : BufTy).Contents (Elt Ideal)) (n : Fin 100000) (j : Fin 256) :
    val_main_v25 (F := Ideal) x0 x1 x2 x3 x6 x7 (ix2 n j)
      = hidden x0 (val_main_v13 (F := Ideal) x0 x6 x7) (val_main_v3 (F := Ideal) x7) x1 x2 x3 n j := by
  rw [val_main_v25_apply, val_main_v24_apply, val_main_v21_apply, v19_at, v20_at, v23_at,
    val_main_call0_v0_apply, val_main_call0_cst_apply]
  unfold hidden
  rfl

/-! ## The two poolings by graph id -/

/-- The reference's node count of graph g: the scatter of ones by graph id, started from zero. -/
private theorem count_eq (x8 : (⟨S100000, .i32⟩ : BufTy).Contents (Elt Ideal)) (g : Fin 64) :
    val_main_v29 (F := Ideal) x8 (ix1 g) = count x8 g := by
  unfold val_main_v29
  show Ideal.hostScatterAdd _ _ _ _ (ix1 g) = _
  rw [Scatter.scatter_count_apply, val_main_v27_apply, val_main_cst_5_apply]
  unfold count
  refine (congrArg₂ (· + ·) zeroF_eq (Finset.sum_congr rfl fun n _ => ?_)).trans (zero_add _)
  have e : idx_main_v28 (ix2 n (0 : Fin 1)) = ix1 n :=
    funext fun a => match a with | ⟨0, _⟩ => rfl
  rw [val_main_v28_apply, e, val_main_v26_apply, val_main_cst_4_apply]
  exact congrArg (fun t : EReal => if inGraph x8 n g then t else 0) oneF_eq

/-- The reference's pooled numerator of graph g, feature j: the scatter of the activations' rows by graph id, started
    from zero. -/
private theorem pooled_eq (x0 : (⟨S100000x128, .f32⟩ : BufTy).Contents (Elt Ideal)) (x1 x2 : (⟨S128x256, .f32⟩ : BufTy).Contents (Elt Ideal)) (x3 : (⟨S256, .f32⟩ : BufTy).Contents (Elt Ideal)) (x6 x7 : (⟨S1600000, .i32⟩ : BufTy).Contents (Elt Ideal)) (x8 : (⟨S100000, .i32⟩ : BufTy).Contents (Elt Ideal)) (g : Fin 64) (j : Fin 256) :
    val_main_v32 (F := Ideal) x0 x1 x2 x3 x6 x7 x8 (ix2 g j)
      = pooledNum (hidden x0 (val_main_v13 (F := Ideal) x0 x6 x7) (val_main_v3 (F := Ideal) x7) x1 x2 x3) x8 g j := by
  unfold val_main_v32
  show Ideal.hostScatterAdd _ _ _ _ (ix2 g j) = _
  rw [Scatter.scatter_rows_apply, val_main_v30_apply, val_main_cst_6_apply]
  unfold pooledNum
  refine (congrArg₂ (· + ·) zeroF_eq (Finset.sum_congr rfl fun n _ => ?_)).trans (zero_add _)
  have e : idx_main_v31 (ix2 n (0 : Fin 1)) = ix1 n :=
    funext fun a => match a with | ⟨0, _⟩ => rfl
  rw [val_main_v31_apply, e, hidden_row]

/-- The divisor of the graph mean at graph g, read at any of the 256 columns it is spread over: the larger of the
    graph's node count and one. -/
private theorem v36_at (x8 : (⟨S100000, .i32⟩ : BufTy).Contents (Elt Ideal)) (g : Fin 64) (j : Fin 256) :
    val_main_v36 (F := Ideal) x8 (ix2 g j) = max (count x8 g) oneF := by
  have e : idx_main_v35 (idx_main_v36 (ix2 g j)) = ix1 g :=
    funext fun a => match a with | ⟨0, _⟩ => rfl
  rw [val_main_v36_apply, val_main_v35_apply, e, val_main_v34_apply, count_eq, val_main_v33_apply, val_main_cst_7_apply]
  rfl

/-- The bias of the head spread over the graphs, read at graph g, class k. -/
private theorem v40_at (x5 : (⟨S40, .f32⟩ : BufTy).Contents (Elt Ideal)) (g : Fin 64) (k : Fin 40) :
    val_main_v40 (F := Ideal) x5 (ix2 g k) = x5 (ix1 k) := by
  have e : idx_main_v39 (idx_main_v40 (ix2 g k)) = ix1 k :=
    funext fun a => match a with | ⟨0, _⟩ => rfl
  rw [val_main_v40_apply, val_main_v39_apply, e]

/-! ## The result -/

/-- The reference's result at graph g, class k. -/
theorem ref_result (x0 : (⟨S100000x128, .f32⟩ : BufTy).Contents (Elt Ideal)) (x1 x2 : (⟨S128x256, .f32⟩ : BufTy).Contents (Elt Ideal))
    (x3 : (⟨S256, .f32⟩ : BufTy).Contents (Elt Ideal)) (x4 : (⟨S256x40, .f32⟩ : BufTy).Contents (Elt Ideal))
    (x5 : (⟨S40, .f32⟩ : BufTy).Contents (Elt Ideal)) (x6 x7 : (⟨S1600000, .i32⟩ : BufTy).Contents (Elt Ideal))
    (x8 : (⟨S100000, .i32⟩ : BufTy).Contents (Elt Ideal)) (g : Fin 64) (k : Fin 40) :
    val_main_v41 (F := Ideal) x0 x1 x2 x3 x4 x5 x6 x7 x8 (ix2 g k)
      = result (hidden x0 (val_main_v13 (F := Ideal) x0 x6 x7) (val_main_v3 (F := Ideal) x7) x1 x2 x3) x8 x4 x5 g k := by
  rw [val_main_v41_apply, val_main_v38_apply, v40_at]
  unfold result
  refine congrArg₂ (· + ·) (Finset.sum_congr rfl fun j _ => ?_) rfl
  have el : lidx_main_v38 (ix2 g k) j = ix2 g j :=
    funext fun a => match a with | ⟨0, _⟩ => rfl | ⟨1, _⟩ => rfl
  have er : ridx_main_v38 (ix2 g k) j = ix2 j k :=
    funext fun a => match a with | ⟨0, _⟩ => rfl | ⟨1, _⟩ => rfl
  rw [el, er, val_main_v37_apply, pooled_eq, v36_at]
  rfl

end Cert.Sage.RefValue

end
-- ==== Proof.Payload.lean ====
/-
  What the kernel body computes from one tile's blocks, read at one element.
  With x2 the tile's two side columns (column 0 the degree, column 1 the graph id as a float), row r of the tile
  has the one-hot entry onehot r g = 1 if the id truncated to an integer is g, else 0; the body's first result at
  (g, j) is the sum over the tile's rows of onehot r g times the row's hidden activation, and its second result at g
  is the sum of onehot r g.
-/
import proofs.«415320_j45707041964681_2_alg».proof.Proof.Gen.KernelIdeal.Skeleton
import proofs.«415320_j45707041964681_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.ShloMosaic.ValueIdx Idealize.SL.Sem

namespace Cert.Sage.Payload

open Cert.KernelIdeal Cert.KernelIdeal.Gen Cert.Sage

/-- The one-hot entry of row r of a tile for graph g, from the tile's side columns. -/
def onehot (x2 : S4000x2.Idx → EReal) (r : Fin 4000) (g : Fin 64) : EReal :=
  if Ideal.fptosi 32 (x2 (ix2 r (1 : Fin 2))) = BitVec.ofNat 32 g.val then 1 else 0

/-- The hidden activation of row r of a tile, feature j, from the tile's blocks. -/
def hiddenBlk (x0 x1 : S4000x128.Idx → EReal) (x2 : S4000x2.Idx → EReal) (x3 x4 : S128x256.Idx → EReal) (x5 : S1x256.Idx → EReal)
    (r : Fin 4000) (j : Fin 256) : EReal :=
  max (((∑ k : Fin 128, x0 (ix2 r k) * x3 (ix2 k j))
      + ∑ k : Fin 128, Ideal.div (x1 (ix2 r k)) (max (x2 (ix2 r (0 : Fin 2))) oneF) * x4 (ix2 k j)) + x5 (ix2 (0 : Fin 1) j)) zeroF

/-! ## Layout operations of the body read at coordinates -/

section Layout
variable {α : Type}

/-- A `[a, 1]` column broadcast to `[a, b]` reads, at `(p, c)`, the column at row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column 0 of the side block, as a `[4000, 1]` slice, read at row `r`. -/
private theorem slice_col0_apply (x : S4000x2.Idx → α) (r : Fin 4000) :
    extractStridedSlice S4000x1 ![0, 0] x slices_S4000x2_o0_0_S4000x1 (ix2 r (0 : Fin 1)) = x (ix2 r (0 : Fin 2)) :=
  extractStridedSlice_apply _ x _ _ _ fun a => match a with
    | ⟨0, _⟩ => by show r.val = 0 + r.val; omega
    | ⟨1, _⟩ => by show 0 = 0 + 0; rfl

/-- Column 1 of the side block, as a `[4000, 1]` slice, read at row `r`. -/
private theorem slice_col1_apply (x : S4000x2.Idx → α) (r : Fin 4000) :
    extractStridedSlice S4000x1 ![0, 1] x slices_S4000x2_o0_1_S4000x1 (ix2 r (0 : Fin 1)) = x (ix2 r (1 : Fin 2)) :=
  extractStridedSlice_apply _ x _ _ _ fun a => match a with
    | ⟨0, _⟩ => by show r.val = 0 + r.val; omega
    | ⟨1, _⟩ => by show 1 = 1 + 0; rfl

end Layout

/-! ## The one-hot entry -/

/-- A 1-bit equality test, widened to 32 bits and made a float, is 1 where the words agree and 0 elsewhere. -/
private theorem sitofp_extui_cmpi_eq (a b : BitVec 32) :
    (FloatOps.sitofp (F := Ideal) .f32 ((IntOp.cmpi .eq a b).setWidth 32) : EReal) = if a = b then 1 else 0 := by
  by_cases h : a = b
  · subst h
    rw [if_pos rfl]
    have e : IntOp.cmpi .eq a a = 1#1 := by simp [IntOp.cmpi]
    rw [e]
    show ((((1#1 : BitVec 1).setWidth 32).toInt : ℝ) : EReal) = 1
    have e' : ((1#1 : BitVec 1).setWidth 32).toInt = 1 := by decide
    rw [e']; simp
  · rw [if_neg h]
    have hb : (a == b) = false := beq_eq_false_iff_ne.mpr h
    have e : IntOp.cmpi .eq a b = 0#1 := by simp [IntOp.cmpi, hb]
    rw [e]
    show ((((0#1 : BitVec 1).setWidth 32).toInt : ℝ) : EReal) = 0
    have e' : ((0#1 : BitVec 1).setWidth 32).toInt = 0 := by decide
    rw [e']; simp

/-- The body's one-hot array at row `r`, graph `g`. -/
private theorem pay3_apply (x2 : Vec Ideal S4000x2 .f32) (r : Fin 4000) (g : Fin 64) :
    k0_pay3 (F := Ideal) x2 (ix2 r g) = onehot x2 r g := by
  unfold k0_pay3 k0_pay2
  rw [shapeCast_self]
  show (FloatOps.sitofp (F := Ideal) .f32 ((IntOp.cmpi .eq
      (broadcastTo S4000x64 (fptosi (F := Ideal) 32 (extractStridedSlice S4000x1 ![0, 1] x2 slices_S4000x2_o0_1_S4000x1)) broadcasts_S4000x1_S4000x64 (ix2 r g))
      (iota .tc S4000x64 32 [1] iota_S4000x64_d1_w32 (ix2 r g))).setWidth 32) : EReal) = _
  rw [sitofp_extui_cmpi_eq, broadcastTo_a1_ab_apply, iota_single_apply]
  show (if Ideal.fptosi 32 (extractStridedSlice S4000x1 ![0, 1] x2 slices_S4000x2_o0_1_S4000x1 (ix2 r (0 : Fin 1))) = BitVec.ofNat 32 g.val then (1 : EReal) else 0) = _
  rw [slice_col1_apply]
  rfl

/-! ## The body's matrix products read at coordinates -/

/-- Rows-by-columns product, left operand: axis 0 is the output row. -/
private theorem lhsA_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
/-- Left operand: axis 1 is the contraction position. -/
private theorem lhsA_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
/-- Right operand: axis 0 is the contraction position. -/
private theorem rhsA_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
/-- Right operand: axis 1 is the output column. -/
private theorem rhsA_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A `[4000,128] × [128,256]` product onto a zero accumulator, at `(r, j)`, is the sum over the 128 inner positions. -/
private theorem matmulA_apply (lhs : FVec Ideal S4000x128 .bf16) (rhs : FVec Ideal S128x256 .bf16) (r : Fin 4000) (j : Fin 256) :
    matmul dot_S4000x128_S128x256_S4000x256_1_0_0_1_n_n none lhs rhs (constant (F := Ideal) S4000x256 .f32 0x00000000#32) (ix2 r j)
      = ∑ k : Fin 128, lhs (ix2 r k) * rhs (ix2 k j) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 r j) ((contrEquiv1 dot_S4000x128_S128x256_S4000x256_1_0_0_1_n_n 128 rfl rfl).symm k) = ix2 r k := funext fun a => Fin.ext (by
    match a with
    | ⟨0, _⟩ => exact lhsA_0 _ _
    | ⟨1, _⟩ => exact (lhsA_1 _ _).trans hk)
  have er : dot_S4000x128_S128x256_S4000x256_1_0_0_1_n_n.rhsIdx (ix2 r j) ((contrEquiv1 dot_S4000x128_S128x256_S4000x256_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-- Pooling product, left operand: axis 0 is the contraction position (the tile's row). -/
private theorem lhsB_0 (i : S64x256.Idx) (q : dot_S4000x64_S4000x256_S64x256_0_0_1_1_n_n.contr.Idx) :
    (dot_S4000x64_S4000x256_S64x256_0_0_1_1_n_n.lhsIdx i q 0).val = (q ⟨0, by decide⟩).val :=
  dot_S4000x64_S4000x256_S64x256_0_0_1_1_n_n.lhsIdx_val_of_single rfl i q
/-- Left operand: axis 1 is the output row (the graph). -/
private theorem lhsB_1 (i : S64x256.Idx) (q : dot_S4000x64_S4000x256_S64x256_0_0_1_1_n_n.contr.Idx) :
    (dot_S4000x64_S4000x256_S64x256_0_0_1_1_n_n.lhsIdx i q 1).val = (i 0).val := by
  unfold DotDims.lhsIdx
  rw [dif_neg (show ¬(1 : Fin S4000x64.rank) ∈ dot_S4000x64_S4000x256_S64x256_0_0_1_1_n_n.lhsBatch by decide), dif_pos (show (1 : Fin S4000x64.rank) ∈ dot_S4000x64_S4000x256_S64x256_0_0_1_1_n_n.lhsNonContracting by decide)]
  rfl
/-- Right operand: axis 0 is the contraction position. -/
private theorem rhsB_0 (i : S64x256.Idx) (q : dot_S4000x64_S4000x256_S64x256_0_0_1_1_n_n.contr.Idx) :
    (dot_S4000x64_S4000x256_S64x256_0_0_1_1_n_n.rhsIdx i q 0).val = (q ⟨0, by decide⟩).val :=
  dot_S4000x64_S4000x256_S64x256_0_0_1_1_n_n.rhsIdx_val_of_single rfl i q
/-- Right operand: axis 1 is the output column (the feature). -/
private theorem rhsB_1 (i : S64x256.Idx) (q : dot_S4000x64_S4000x256_S64x256_0_0_1_1_n_n.contr.Idx) :
    (dot_S4000x64_S4000x256_S64x256_0_0_1_1_n_n.rhsIdx i q 1).val = (i 1).val := by
  unfold DotDims.rhsIdx
  rw [dif_neg (show ¬(1 : Fin S4000x256.rank) ∈ dot_S4000x64_S4000x256_S64x256_0_0_1_1_n_n.rhsBatch by decide), dif_pos (show (1 : Fin S4000x256.rank) ∈ dot_S4000x64_S4000x256_S64x256_0_0_1_1_n_n.rhsNonContracting by decide)]
  rfl

/-- The pooling product `[4000,64]ᵀ × [4000,256]` onto a zero accumulator, at `(g, j)`, is the sum over the tile's 4000 rows. -/
private theorem matmulB_apply (lhs : FVec Ideal S4000x64 .bf16) (rhs : FVec Ideal S4000x256 .bf16) (g : Fin 64) (j : Fin 256) :
    matmul dot_S4000x64_S4000x256_S64x256_0_0_1_1_n_n none lhs rhs (constant (F := Ideal) S64x256 .f32 0x00000000#32) (ix2 g j)
      = ∑ r : Fin 4000, lhs (ix2 r g) * rhs (ix2 r j) := by
  simp only [matmul]
  rw [Ideal.matmul_constant_zero_apply, ← Equiv.sum_comp (contrEquiv1 dot_S4000x64_S4000x256_S64x256_0_0_1_1_n_n 4000 rfl rfl).symm]
  refine Finset.sum_congr rfl fun k _ => ?_
  have hk := contrEquiv1_symm_val dot_S4000x64_S4000x256_S64x256_0_0_1_1_n_n 4000 rfl rfl k
  have el : dot_S4000x64_S4000x256_S64x256_0_0_1_1_n_n.lhsIdx (ix2 g j) ((contrEquiv1 dot_S4000x64_S4000x256_S64x256_0_0_1_1_n_n 4000 rfl rfl).symm k) = ix2 k g := funext fun a => Fin.ext (by
    match a with
    | ⟨0, _⟩ => exact (lhsB_0 _ _).trans hk
    | ⟨1, _⟩ => exact lhsB_1 _ _)
  have er : dot_S4000x64_S4000x256_S64x256_0_0_1_1_n_n.rhsIdx (ix2 g j) ((contrEquiv1 dot_S4000x64_S4000x256_S64x256_0_0_1_1_n_n 4000 rfl rfl).symm k) = ix2 k j := funext fun a => Fin.ext (by
    match a with
    | ⟨0, _⟩ => exact (rhsB_0 _ _).trans hk
    | ⟨1, _⟩ => exact rhsB_1 _ _)
  rw [el, er]

/-! ## The lane sum -/

/-- The sum over the tile's rows of a `[4000, 64]` array, at graph `g`. -/
private theorem laneSum_apply (src : FVec Ideal S4000x64 .f32) (hφ : FKind.Formats .f32)
    (hacc : (0x00000000#32 : BitVec 32) = FKind.add.neutral .f32 hφ) (g : Fin 64) :
    multiReduction .add [0] S64 src 0x00000000#32 reduces_S4000x64_S64 hφ hacc (ix1 g) = ∑ r : Fin 4000, src (ix2 r g) := by
  refine (Ideal.multiReduction_add_single src 0x00000000#32 reduces_S4000x64_S64 hφ hacc (ix1 g)).trans ?_
  refine Finset.sum_congr rfl fun r _ => ?_
  refine congrArg src (funext fun a => ?_)
  match a with
  | ⟨0, _⟩ => rfl
  | ⟨1, _⟩ => rfl

/-! ## The two payloads -/

/-- The pooled partial sums of one tile. -/
theorem pay5_apply (x0 x1 : Vec Ideal S4000x128 .f32) (x2 : Vec Ideal S4000x2 .f32) (x3 x4 : Vec Ideal S128x256 .f32) (x5 : Vec Ideal S1x256 .f32)
    (g : Fin 64) (j : Fin 256) :
    k0_pay5 (F := Ideal) x0 x1 x2 x3 x4 x5 (ix3 (0 : Fin 1) g j) = ∑ r : Fin 4000, onehot x2 r g * hiddenBlk x0 x1 x2 x3 x4 x5 r j := by
  unfold k0_pay5
  rw [shapeCast_ab_1ab_apply, matmulB_apply]
  refine Finset.sum_congr rfl fun r _ => ?_
  rw [truncf_apply, truncf_apply, pay3_apply]
  refine congrArg (onehot x2 r g * ·) ?_
  rw [maximumf_apply, broadcast_apply, addf_apply, addf_apply, matmulA_apply, matmulA_apply, broadcastTo_1b_ab_apply, shapeCast_self,
    shapeCast_self]
  unfold hiddenBlk k0_pay2
  simp only [truncf_apply, divf_apply, broadcastTo_a1_ab_apply, maximumf_apply, broadcast_apply, shapeCast_self, slice_col0_apply]
  rfl

/-- The per-graph row counts of one tile. -/
theorem pay1_apply (x2 : Vec Ideal S4000x2 .f32) (g : Fin 64) :
    k0_pay1 (F := Ideal) (k0_pay4 (F := Ideal) x2) (ix3 (0 : Fin 1) (0 : Fin 1) g) = ∑ r : Fin 4000, onehot x2 r g := by
  unfold k0_pay1 k0_pay4
  rw [shapeCast_ab_1ab_apply, shapeCast_a_1a_apply]
  refine (laneSum_apply _ _ _ g).trans ?_
  exact Finset.sum_congr rfl fun r _ => pay3_apply x2 r g

end Cert.Sage.Payload

end
-- ==== Proof.Prefix.lean ====
/-
  The arrays the host builds before the kernel, as the kernel finds them, read at one element: the side columns
  (column 0 the in-degree, column 1 the graph id made a float) and the bias as a one-row matrix.
-/
import proofs.«415320_j45707041964681_2_alg».proof.Proof.Gen.KernelIdeal.Frame
import proofs.«415320_j45707041964681_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators
open Idealize.ShloMosaic Idealize.ShloMosaic.TcCoe Idealize.ShloMosaic.ValueIdx Idealize.SL.Sem

namespace Cert.Sage.Prefix

open Cert.KernelIdeal Cert.KernelIdeal.Gen Cert.Sage

variable (m : (ℓ : Loc nD τ sig) → Buf (Elt Ideal) ℓ)

/-! ## The host operations' composed terms

The side columns are made by the last five of the twenty-four host operations: the graph ids made floats, the
in-degree and those floats each given a unit second axis, the two columns joined, and (fifth) the bias reshaped. The
nineteen operations before them write none of these five results, so the five are read over whatever the nineteen
left, and the in-degree array stays the opaque array the kernel finds. -/

/-- The last five host operations before the kernel. -/
private abbrev tailOps : List (HloOp τ sig (Elt Ideal)) :=
  [ StableHlo.unary main_arg8 main_v14 (sitofp (F := Ideal) .f32 : (⟨S100000, .i32⟩ : BufTy).Contents (Elt Ideal) → (⟨S100000, .f32⟩ : BufTy).Contents (Elt Ideal)),
    StableHlo.unary main_v3 main_v15 (broadcastInDim S100000x1 ![0] bcast_S100000_S100000x1_0 : (⟨S100000, .f32⟩ : BufTy).Contents (Elt Ideal) → (⟨S100000x1, .f32⟩ : BufTy).Contents (Elt Ideal)),
    StableHlo.unary main_v14 main_v16 (broadcastInDim S100000x1 ![0] bcast_S100000_S100000x1_0 : (⟨S100000, .f32⟩ : BufTy).Contents (Elt Ideal) → (⟨S100000x1, .f32⟩ : BufTy).Contents (Elt Ideal)),
    StableHlo.binary main_v15 main_v16 main_v17 ((fun a b => concatenate S100000x2 1 [⟨S100000x1, a⟩, ⟨S100000x1, b⟩] concatenates_S100000x1_S100000x1_S100000x2_d1) : (⟨S100000x1, .f32⟩ : BufTy).Contents (Elt Ideal) → (⟨S100000x1, .f32⟩ : BufTy).Contents (Elt Ideal) → (⟨S100000x2, .f32⟩ : BufTy).Contents (Elt Ideal)),
    StableHlo.reshape main_arg3 main_v18 rfl shapeCasts_S256_S1x256 ]

/-- They are the host operations from the twentieth on. -/
private theorem drop_eq : (hostOps0 : List (HloOp τ sig (Elt Ideal))).drop 19 = tailOps := rfl

/-- The host operations run as the first nineteen and then the last five. -/
private theorem after_split (W : Valuation τ sig (Elt Ideal)) :
    StableHlo.after hostOps0 W
      = StableHlo.after tailOps (StableHlo.after ((hostOps0 : List (HloOp τ sig (Elt Ideal))).take 19) W) := by
  rw [← drop_eq, ← StableHlo.after_append, List.take_append_drop]

/-- Over any contents, the last five operations leave at the side columns' array the join of the in-degree and of the
    graph ids made floats, each with a unit second axis; the in-degree and the graph ids are arrays none of the five
    writes, so they may be read after the five as well. -/
private theorem tail_v17 (W : Valuation τ sig (Elt Ideal)) :
    (StableHlo.after tailOps W (Proc.devRef .tc main_v17) : S100000x2.Idx → EReal)
      = concatenate S100000x2 1
          [⟨S100000x1, broadcastInDim S100000x1 ![0] bcast_S100000_S100000x1_0
              (StableHlo.after tailOps W (Proc.devRef .tc main_v3) : S100000.Idx → EReal)⟩,
           ⟨S100000x1, broadcastInDim S100000x1 ![0] bcast_S100000_S100000x1_0
              (sitofp (F := Ideal) .f32 (StableHlo.after tailOps W (Proc.devRef .tc main_arg8) : S100000.Idx → BitVec 32)
                : S100000.Idx → EReal)⟩]
          concatenates_S100000x1_S100000x1_S100000x2_d1 := by
  dsimp only [tailOps]
  after_results

/-- The side columns as the kernel finds them: the in-degree array and the graph ids made floats, side by side. -/
private theorem v17_term (c : Dev nD) :
    (V m c main_v17 : S100000x2.Idx → EReal)
      = concatenate S100000x2 1
          [⟨S100000x1, broadcastInDim S100000x1 ![0] bcast_S100000_S100000x1_0 (V m c main_v3 : S100000.Idx → EReal)⟩,
           ⟨S100000x1, broadcastInDim S100000x1 ![0] bcast_S100000_S100000x1_0
              (sitofp (F := Ideal) .f32 (m ((c : Thread nD τ).loc main_arg8) : S100000.Idx → BitVec 32) : S100000.Idx → EReal)⟩]
          concatenates_S100000x1_S100000x1_S100000x2_d1 := by
  rw [← V_main_arg8 m c]
  show StableHlo.after hostOps0 (fun b => m (c, b)) (Proc.devRef .tc main_v17)
      = concatenate S100000x2 1
          [⟨S100000x1, broadcastInDim S100000x1 ![0] bcast_S100000_S100000x1_0
              (StableHlo.after hostOps0 (fun b => m (c, b)) (Proc.devRef .tc main_v3) : S100000.Idx → EReal)⟩,
           ⟨S100000x1, broadcastInDim S100000x1 ![0] bcast_S100000_S100000x1_0
              (sitofp (F := Ideal) .f32 (StableHlo.after hostOps0 (fun b => m (c, b)) (Proc.devRef .tc main_arg8) : S100000.Idx → BitVec 32)
                : S100000.Idx → EReal)⟩]
          concatenates_S100000x1_S100000x1_S100000x2_d1
  rw [after_split]
  exact tail_v17 _

/-- The bias as the kernel finds it: the argument's reshape. -/
private theorem v18_term (c : Dev nD) :
    (V m c main_v18 : S1x256.Idx → EReal)
      = shapeCast S1x256 (m ((c : Thread nD τ).loc main_arg3) : S256.Idx → EReal) shapeCasts_S256_S1x256 := by
  show StableHlo.after hostOps0 (fun b => m (c, b)) (Proc.devRef .tc main_v18) = _
  after_results
  rfl

/-! ## Read at an element -/

/-- An array given a unit second axis reads, at row `n`, its element `n`. -/
private theorem bcast_col {α : Type} (x : S100000.Idx → α) (n : Fin 100000) :
    broadcastInDim S100000x1 ![0] bcast_S100000_S100000x1_0 x (ix2 n (0 : Fin 1)) = x (ix1 n) :=
  broadcastInDim_apply _ _ x _ (ix1 n) (fun a => by
    match a with
    | ⟨0, _⟩ => exact (if_neg (show ¬ (100000 : ℕ) = 1 by decide)).symm)

/-- Column 0 of the side columns is the in-degree array. -/
theorem side_col0 (c : Dev nD) (n : Fin 100000) :
    (V m c main_v17 : S100000x2.Idx → EReal) (ix2 n (0 : Fin 2)) = (V m c main_v3 : S100000.Idx → EReal) (ix1 n) := by
  rw [v17_term]
  -- column 0 lies in the first of the two joined pieces, at the same row
  rw [concatenate_pair_apply_left 1 _ _ concatenates_S100000x1_S100000x1_S100000x2_d1 (ix2 n (0 : Fin 2)) rfl
    (ix2 n (0 : Fin 1)) (fun b => by
      match b with
      | ⟨0, _⟩ => rfl
      | ⟨1, _⟩ => rfl)]
  exact bcast_col _ n

/-- Column 1 of the side columns is the graph id, read signed, as a real. -/
theorem side_col1 (c : Dev nD) (n : Fin 100000) :
    (V m c main_v17 : S100000x2.Idx → EReal) (ix2 n (1 : Fin 2))
      = ((((m ((c : Thread nD τ).loc main_arg8) : S100000.Idx → BitVec 32) (ix1 n)).toInt : ℝ) : EReal) := by
  rw [v17_term]
  -- column 1 lies in the second piece, one column past the first piece's single column
  rw [concatenate_pair_apply_right 1 _ _ concatenates_S100000x1_S100000x1_S100000x2_d1 (ix2 n (1 : Fin 2)) rfl rfl
    (ix2 n (0 : Fin 1)) (fun b hb => by
      match b with
      | ⟨0, _⟩ => rfl
      | ⟨1, _⟩ => exact absurd rfl hb) rfl]
  rw [bcast_col]
  -- the conversion of a signed word is the word's integer as a real
  rfl

/-- The bias as the kernel finds it: the argument reshaped to one row. -/
theorem bias_row (c : Dev nD) (j : Fin 256) :
    (V m c main_v18 : S1x256.Idx → EReal) (ix2 (0 : Fin 1) j) = (m ((c : Thread nD τ).loc main_arg3) : S256.Idx → EReal) (ix1 j) := by
  rw [v18_term]
  exact shapeCast_a_1a_apply _ _ _ _

end Cert.Sage.Prefix

end
-- ==== Proof.Blocks.lean ====
/-
  The kernel's two result arrays after the run, read at one element.
  Tile t of the grid stages rows 4000 t .. 4000 t + 3999 of the node features, of the neighbour sums and of the two
  side columns (degree; graph id made a float), and the whole weight matrices and bias; it writes block t of each
  result array.  So the pooled array at (t, g, j) is the sum over the tile's rows r of [gid (4000 t + r) = g] times
  hidden (4000 t + r) j, and the count array at (t, 0, g) the number of the tile's rows in graph g.
-/
import proofs.«415320_j45707041964681_2_alg».proof.Proof.Gen.KernelIdeal.Frame
import proofs.«415320_j45707041964681_2_alg».proof.Proof.Spec
import proofs.«415320_j45707041964681_2_alg».proof.Proof.Payload
import proofs.«415320_j45707041964681_2_alg».proof.Proof.Prefix
import Idealize.ShloMosaic.Lib.Pipeline.Value
import Idealize.ShloMosaic.Lib.ValueIdx
import Idealize.ShloMosaic.Lib.ValueLayout
import Idealize.ShloMosaic.Lib.StableHlo.Run

noncomputable section

open scoped BigOperators
open Idealize.ShloMosaic Idealize.ShloMosaic.TcCoe Idealize.ShloMosaic.ValueIdx Idealize.SL.Sem

namespace Cert.Sage.Blocks

open Cert.KernelIdeal Cert.KernelIdeal.Gen Cert.Sage
open Idealize.ShloMosaic.Pipeline (Dat)

variable (m : (ℓ : Loc nD τ sig) → Buf (Elt Ideal) ℓ)

/-- The neighbour sums as the region finds them: the host's scatter of the gathered feature rows. -/
abbrev aggK (c : Dev nD) : S100000x128.Idx → EReal := V m c main_v13
/-- The in-degrees as the region finds them: the host's scatter of ones. -/
abbrev degK (c : Dev nD) : S100000.Idx → EReal := V m c main_v3

/-- The hidden activations the kernel computes, from the launch contents of the arguments. -/
abbrev hiddenK (c : Dev nD) : Fin 100000 → Fin 256 → EReal :=
  hidden (m ((c : Thread nD τ).loc main_arg0)) (aggK m c) (degK m c) (m ((c : Thread nD τ).loc main_arg1))
    (m ((c : Thread nD τ).loc main_arg2)) (m ((c : Thread nD τ).loc main_arg3))

/-! ## The grid's points and the windows' block indices -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- A grid point as a tile number. -/
def tile (t : Fin cfg0.N) : Fin 25 := ⟨t.val, lt_of_lt_of_eq t.isLt N_0⟩

/-- The block index of every window at every point of the grid: the row-tiled windows and the two results are at
    block t along their first axis, the weights and the bias at block (0, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ## Each input block read at an element

Each lemma is first stated for an arbitrary array in the window's buffer: a block's coordinate on an axis is the
block index times the block size plus the coordinate inside the block. -/

/-- Row r of point t's block of a row-tiled array of 128 columns is row 4000 t + r of the array (window 0). -/
theorem read_blk0 (c : Dev nD) (t : Fin cfg0.N) (A : Buf (Elt Ideal) ((c : Thread nD τ).loc (Pipeline.arrRef spec0 0)))
    (r : Fin 4000) (k : Fin 128) :
    (((cfg0.win 0).blk t).view.read (Elt Ideal) A : Vec Ideal S4000x128 .f32) (ix2 r k)
      = (A : S100000x128.Idx → EReal) (ix2 (row (tile t) r) k) := by
  obtain ⟨e0, e1, -⟩ := block_index t
  rw [View.read_apply]
  show A _ = A _
  refine congrArg A ?_
  funext a
  apply Fin.ext
  match a with
  | ⟨0, _⟩ => show win0_0.index t 0 * 4000 + 1 * r.val = t.val * 4000 + r.val; rw [e0]; omega
  | ⟨1, _⟩ => show win0_0.index t 1 * 128 + 1 * k.val = k.val; rw [e1]; omega

/-- The same for window 1. -/
theorem read_blk1 (c : Dev nD) (t : Fin cfg0.N) (A : Buf (Elt Ideal) ((c : Thread nD τ).loc (Pipeline.arrRef spec0 1)))
    (r : Fin 4000) (k : Fin 128) :
    (((cfg0.win 1).blk t).view.read (Elt Ideal) A : Vec Ideal S4000x128 .f32) (ix2 r k)
      = (A : S100000x128.Idx → EReal) (ix2 (row (tile t) r) k) := by
  obtain ⟨-, -, e0, e1, -⟩ := block_index t
  rw [View.read_apply]
  show A _ = A _
  refine congrArg A ?_
  funext a
  apply Fin.ext
  match a with
  | ⟨0, _⟩ => show win0_1.index t 0 * 4000 + 1 * r.val = t.val * 4000 + r.val; rw [e0]; omega
  | ⟨1, _⟩ => show win0_1.index t 1 * 128 + 1 * k.val = k.val; rw [e1]; omega

/-- Row r of point t's block of a row-tiled array of 2 columns is row 4000 t + r of the array (window 2). -/
theorem read_blk2 (c : Dev nD) (t : Fin cfg0.N) (A : Buf (Elt Ideal) ((c : Thread nD τ).loc (Pipeline.arrRef spec0 2)))
    (r : Fin 4000) (q : Fin 2) :
    (((cfg0.win 2).blk t).view.read (Elt Ideal) A : Vec Ideal S4000x2 .f32) (ix2 r q)
      = (A : S100000x2.Idx → EReal) (ix2 (row (tile t) r) q) := by
  obtain ⟨-, -, -, -, e0, e1, -⟩ := block_index t
  rw [View.read_apply]
  show A _ = A _
  refine congrArg A ?_
  funext a
  apply Fin.ext
  match a with
  | ⟨0, _⟩ => show win0_2.index t 0 * 4000 + 1 * r.val = t.val * 4000 + r.val; rw [e0]; omega
  | ⟨1, _⟩ => show win0_2.index t 1 * 2 + 1 * q.val = q.val; rw [e1]; omega

/-- Every point's block of window 3 is the whole array. -/
theorem read_blk3 (c : Dev nD) (t : Fin cfg0.N) (A : Buf (Elt Ideal) ((c : Thread nD τ).loc (Pipeline.arrRef spec0 3)))
    (k : Fin 128) (j : Fin 256) :
    (((cfg0.win 3).blk t).view.read (Elt Ideal) A : Vec Ideal S128x256 .f32) (ix2 k j) = (A : S128x256.Idx → EReal) (ix2 k j) := by
  obtain ⟨-, -, -, -, -, -, e0, e1, -⟩ := block_index t
  rw [View.read_apply]
  show A _ = A _
  refine congrArg A ?_
  funext a
  apply Fin.ext
  match a with
  | ⟨0, _⟩ => show win0_3.index t 0 * 128 + 1 * k.val = k.val; rw [e0]; omega
  | ⟨1, _⟩ => show win0_3.index t 1 * 256 + 1 * j.val = j.val; rw [e1]; omega

/-- Every point's block of window 4 is the whole array. -/
theorem read_blk4 (c : Dev nD) (t : Fin cfg0.N) (A : Buf (Elt Ideal) ((c : Thread nD τ).loc (Pipeline.arrRef spec0 4)))
    (k : Fin 128) (j : Fin 256) :
    (((cfg0.win 4).blk t).view.read (Elt Ideal) A : Vec Ideal S128x256 .f32) (ix2 k j) = (A : S128x256.Idx → EReal) (ix2 k j) := by
  obtain ⟨-, -, -, -, -, -, -, -, e0, e1, -⟩ := block_index t
  rw [View.read_apply]
  show A _ = A _
  refine congrArg A ?_
  funext a
  apply Fin.ext
  match a with
  | ⟨0, _⟩ => show win0_4.index t 0 * 128 + 1 * k.val = k.val; rw [e0]; omega
  | ⟨1, _⟩ => show win0_4.index t 1 * 256 + 1 * j.val = j.val; rw [e1]; omega

/-- Every point's block of window 5 is the whole one-row array. -/
theorem read_blk5 (c : Dev nD) (t : Fin cfg0.N) (A : Buf (Elt Ideal) ((c : Thread nD τ).loc (Pipeline.arrRef spec0 5)))
    (j : Fin 256) :
    (((cfg0.win 5).blk t).view.read (Elt Ideal) A : Vec Ideal S1x256 .f32) (ix2 (0 : Fin 1) j) = (A : S1x256.Idx → EReal) (ix2 (0 : Fin 1) j) := by
  obtain ⟨-, -, -, -, -, -, -, -, -, -, e0, e1, -⟩ := block_index t
  rw [View.read_apply]
  show A _ = A _
  refine congrArg A ?_
  funext a
  apply Fin.ext
  match a with
  | ⟨0, _⟩ => show win0_5.index t 0 * 1 + 1 * 0 = 0; rw [e0]
  | ⟨1, _⟩ => show win0_5.index t 1 * 256 + 1 * j.val = j.val; rw [e1]; omega

/-- Row r of tile t of the node features is node 4000 t + r of the argument. -/
theorem iblk0_apply (c : Dev nD) (t : Fin cfg0.N) (r : Fin 4000) (k : Fin 128) :
    (iblk m c 0 t : Vec Ideal S4000x128 .f32) (ix2 r k)
      = (m ((c : Thread nD τ).loc main_arg0) : S100000x128.Idx → EReal) (ix2 (row (tile t) r) k) := by
  unfold iblk
  refine (read_blk0 c t (V m c (Pipeline.arrRef spec0 0)) r k).trans ?_
  exact congrFun (V_main_arg0 m c) _

/-- Row r of tile t of the neighbour sums is node 4000 t + r's. -/
theorem iblk1_apply (c : Dev nD) (t : Fin cfg0.N) (r : Fin 4000) (k : Fin 128) :
    (iblk m c 1 t : Vec Ideal S4000x128 .f32) (ix2 r k) = aggK m c (ix2 (row (tile t) r) k) := by
  unfold iblk
  exact read_blk1 c t (aggK m c) r k

/-- Row r of tile t of the side columns is node 4000 t + r's. -/
theorem iblk2_apply (c : Dev nD) (t : Fin cfg0.N) (r : Fin 4000) (q : Fin 2) :
    (iblk m c 2 t : Vec Ideal S4000x2 .f32) (ix2 r q) = (V m c main_v17 : S100000x2.Idx → EReal) (ix2 (row (tile t) r) q) := by
  unfold iblk
  exact read_blk2 c t (V m c main_v17) r q

/-- Every tile stages the whole first weight matrix. -/
theorem iblk3_apply (c : Dev nD) (t : Fin cfg0.N) (k : Fin 128) (j : Fin 256) :
    (iblk m c 3 t : Vec Ideal S128x256 .f32) (ix2 k j) = (m ((c : Thread nD τ).loc main_arg1) : S128x256.Idx → EReal) (ix2 k j) := by
  unfold iblk
  refine (read_blk3 c t (V m c (Pipeline.arrRef spec0 3)) k j).trans ?_
  exact congrFun (V_main_arg1 m c) _

/-- Every tile stages the whole second weight matrix. -/
theorem iblk4_apply (c : Dev nD) (t : Fin cfg0.N) (k : Fin 128) (j : Fin 256) :
    (iblk m c 4 t : Vec Ideal S128x256 .f32) (ix2 k j) = (m ((c : Thread nD τ).loc main_arg2) : S128x256.Idx → EReal) (ix2 k j) := by
  unfold iblk
  refine (read_blk4 c t (V m c (Pipeline.arrRef spec0 4)) k j).trans ?_
  exact congrFun (V_main_arg2 m c) _

/-- Every tile stages the whole bias row. -/
theorem iblk5_apply (c : Dev nD) (t : Fin cfg0.N) (j : Fin 256) :
    (iblk m c 5 t : Vec Ideal S1x256 .f32) (ix2 (0 : Fin 1) j) = (V m c main_v18 : S1x256.Idx → EReal) (ix2 (0 : Fin 1) j) := by
  unfold iblk
  exact read_blk5 c t (V m c main_v18) j

/-! ## One tile's payload in terms of the nodes -/

/-- The one-hot entry of a row whose graph-id column holds the node's id as a real is the membership test. -/
theorem onehot_eq_of (x2 : S4000x2.Idx → EReal) (gid : S100000.Idx → BitVec 32) (r : Fin 4000) (n : Fin 100000) (g : Fin 64)
    (h : x2 (ix2 r (1 : Fin 2)) = (((gid (ix1 n)).toInt : ℝ) : EReal)) :
    Payload.onehot x2 r g = if inGraph gid n g then (1 : EReal) else 0 := by
  unfold Payload.onehot
  rw [h, fptosi_sitofp]
  exact if_congr (eq_ofNat_iff _ g) rfl rfl

/-- The hidden activation computed from blocks that hold node n's rows and the whole weights is node n's. -/
theorem hiddenBlk_eq_of (x0 x1 : S4000x128.Idx → EReal) (x2 : S4000x2.Idx → EReal) (x3 x4 : S128x256.Idx → EReal) (x5 : S1x256.Idx → EReal)
    (h agg : S100000x128.Idx → EReal) (deg : S100000.Idx → EReal) (Ws Wn : S128x256.Idx → EReal) (b : S256.Idx → EReal)
    (r : Fin 4000) (n : Fin 100000) (j : Fin 256)
    (h0 : ∀ k : Fin 128, x0 (ix2 r k) = h (ix2 n k)) (h1 : ∀ k : Fin 128, x1 (ix2 r k) = agg (ix2 n k))
    (h2 : x2 (ix2 r (0 : Fin 2)) = deg (ix1 n)) (h3 : ∀ k : Fin 128, x3 (ix2 k j) = Ws (ix2 k j))
    (h4 : ∀ k : Fin 128, x4 (ix2 k j) = Wn (ix2 k j)) (h5 : x5 (ix2 (0 : Fin 1) j) = b (ix1 j)) :
    Payload.hiddenBlk x0 x1 x2 x3 x4 x5 r j = hidden h agg deg Ws Wn b n j := by
  unfold Payload.hiddenBlk hidden
  simp only [h0, h1, h2, h3, h4, h5]

/-- The one-hot entry of row r of tile t. -/
theorem onehot_tile (c : Dev nD) (t : Fin cfg0.N) (r : Fin 4000) (g : Fin 64) :
    Payload.onehot (iblk m c 2 t) r g
      = if inGraph (m ((c : Thread nD τ).loc main_arg8)) (row (tile t) r) g then (1 : EReal) else 0 :=
  onehot_eq_of (iblk m c 2 t) (m ((c : Thread nD τ).loc main_arg8)) r (row (tile t) r) g
    ((iblk2_apply m c t r (1 : Fin 2)).trans (Prefix.side_col1 m c (row (tile t) r)))

/-- The hidden activation of row r of tile t. -/
theorem hiddenBlk_tile (c : Dev nD) (t : Fin cfg0.N) (r : Fin 4000) (j : Fin 256) :
    Payload.hiddenBlk (iblk m c 0 t) (iblk m c 1 t) (iblk m c 2 t) (iblk m c 3 t) (iblk m c 4 t) (iblk m c 5 t) r j
      = hiddenK m c (row (tile t) r) j :=
  hiddenBlk_eq_of (iblk m c 0 t) (iblk m c 1 t) (iblk m c 2 t) (iblk m c 3 t) (iblk m c 4 t) (iblk m c 5 t)
    (m ((c : Thread nD τ).loc main_arg0)) (aggK m c) (degK m c) (m ((c : Thread nD τ).loc main_arg1))
    (m ((c : Thread nD τ).loc main_arg2)) (m ((c : Thread nD τ).loc main_arg3)) r (row (tile t) r) j
    (fun k => iblk0_apply m c t r k) (fun k => iblk1_apply m c t r k)
    ((iblk2_apply m c t r (0 : Fin 2)).trans (Prefix.side_col0 m c (row (tile t) r)))
    (fun k => iblk3_apply m c t k j) (fun k => iblk4_apply m c t k j)
    ((iblk5_apply m c t j).trans (Prefix.bias_row m c j))

/-- Tile t's pooled partial sum for graph g, feature j. -/
def pooledTile (c : Dev nD) (t : Fin 25) (g : Fin 64) (j : Fin 256) : EReal :=
  ∑ r : Fin 4000, (if inGraph (m ((c : Thread nD τ).loc main_arg8)) (row t r) g then (1 : EReal) else 0) * hiddenK m c (row t r) j

/-- The number of tile t's rows in graph g. -/
def countTile (c : Dev nD) (t : Fin 25) (g : Fin 64) : EReal :=
  ∑ r : Fin 4000, (if inGraph (m ((c : Thread nD τ).loc main_arg8)) (row t r) g then (1 : EReal) else 0)

theorem pooledTile_congr (c : Dev nD) {t t' : Fin 25} {g g' : Fin 64} {j j' : Fin 256}
    (ht : t.val = t'.val) (hg : g.val = g'.val) (hj : j.val = j'.val) : pooledTile m c t g j = pooledTile m c t' g' j' := by
  obtain rfl := Fin.ext ht; obtain rfl := Fin.ext hg; obtain rfl := Fin.ext hj; rfl

theorem countTile_congr (c : Dev nD) {t t' : Fin 25} {g g' : Fin 64}
    (ht : t.val = t'.val) (hg : g.val = g'.val) : countTile m c t g = countTile m c t' g' := by
  obtain rfl := Fin.ext ht; obtain rfl := Fin.ext hg; rfl

/-- The body's first result at tile t. -/
theorem pooled_point (c : Dev nD) (t : Fin cfg0.N) (g : Fin 64) (j : Fin 256) :
    k0_pay5 (F := Ideal) (iblk m c 0 t) (iblk m c 1 t) (iblk m c 2 t) (iblk m c 3 t) (iblk m c 4 t) (iblk m c 5 t) (ix3 (0 : Fin 1) g j)
      = pooledTile m c (tile t) g j := by
  refine (Payload.pay5_apply (iblk m c 0 t) (iblk m c 1 t) (iblk m c 2 t) (iblk m c 3 t) (iblk m c 4 t) (iblk m c 5 t) g j).trans ?_
  unfold pooledTile
  exact Finset.sum_congr rfl fun r _ => congrArg₂ (· * ·) (onehot_tile m c t r g) (hiddenBlk_tile m c t r j)

/-- The body's second result at tile t. -/
theorem count_point (c : Dev nD) (t : Fin cfg0.N) (g : Fin 64) :
    k0_pay1 (F := Ideal) (k0_pay4 (F := Ideal) (iblk m c 2 t)) (ix3 (0 : Fin 1) (0 : Fin 1) g) = countTile m c (tile t) g := by
  refine (Payload.pay1_apply (iblk m c 2 t) g).trans ?_
  unfold countTile
  exact Finset.sum_congr rfl fun r _ => onehot_tile m c t r g

/-! ## What each point writes back, and the arrays -/

/-- Point t writes back block t of the pooled partial sums. -/
theorem flushed_pooled (c : Dev nD) (t : Fin cfg0.N) :
    (dats (F := Ideal) m 0 c).flushed 6 t
      = ((cfg0.win 6).blk t).view.read (Elt Ideal) (fun i : S25x64x256.Idx => pooledTile m c (i 0) (i 1) (i 2)) := by
  show (cfg0.win 6).cut (grid0.coords t) ((dats m 0 c).after 6 t) = _
  rw [after0_6]
  unfold out0_6
  rw [View.canon_unit_zero zeros3]
  simp only [View.ld_unit_zero (S := S4000x128) zeros2, View.ld_unit_zero (S := S4000x2) zeros2,
    View.ld_unit_zero (S := S128x256) zeros2, View.ld_unit_zero (S := S1x256) zeros2]
  obtain ⟨-, -, -, -, -, -, -, -, -, -, -, -, e0, e1, e2, -⟩ := block_index t
  funext y
  have hy0 : (y 0).val < 1 := (y 0).isLt
  have hy1 : (y 1).val < 64 := (y 1).isLt
  have hy2 : (y 2).val < 256 := (y 2).isLt
  have ey : ((cfg0.win 6).xinj (grid0.coords t) y : S1x64x256.Idx)
      = ix3 (0 : Fin 1) (⟨(y 1).val, hy1⟩ : Fin 64) (⟨(y 2).val, hy2⟩ : Fin 256) := by
    funext a; apply Fin.ext
    match a with
    | ⟨0, _⟩ => show (y 0).val = 0; omega
    | ⟨1, _⟩ => rfl
    | ⟨2, _⟩ => rfl
  show k0_pay5 (F := Ideal) (iblk m c 0 t) (iblk m c 1 t) (iblk m c 2 t) (iblk m c 3 t) (iblk m c 4 t) (iblk m c 5 t)
      ((cfg0.win 6).xinj (grid0.coords t) y)
    = pooledTile m c (((cfg0.win 6).blk t).view.emb y 0) (((cfg0.win 6).blk t).view.emb y 1) (((cfg0.win 6).blk t).view.emb y 2)
  refine (congrArg (k0_pay5 (F := Ideal) (iblk m c 0 t) (iblk m c 1 t) (iblk m c 2 t) (iblk m c 3 t) (iblk m c 4 t) (iblk m c 5 t)) ey).trans ?_
  refine (pooled_point m c t ⟨(y 1).val, hy1⟩ ⟨(y 2).val, hy2⟩).trans ?_
  refine pooledTile_congr m c ?_ ?_ ?_
  · show t.val = win0_6.index t 0 * 1 + 1 * (y 0).val; rw [e0]; omega
  · show (y 1).val = win0_6.index t 1 * 64 + 1 * (y 1).val; rw [e1]; omega
  · show (y 2).val = win0_6.index t 2 * 256 + 1 * (y 2).val; rw [e2]; omega

/-- Point t writes back block t of the row counts. -/
theorem flushed_count (c : Dev nD) (t : Fin cfg0.N) :
    (dats (F := Ideal) m 0 c).flushed 7 t
      = ((cfg0.win 7).blk t).view.read (Elt Ideal) (fun i : S25x1x64.Idx => countTile m c (i 0) (i 2)) := by
  show (cfg0.win 7).cut (grid0.coords t) ((dats m 0 c).after 7 t) = _
  rw [after0_7]
  unfold out0_7
  rw [View.canon_unit_zero zeros3]
  simp only [View.ld_unit_zero (S := S4000x2) zeros2]
  obtain ⟨-, -, -, -, -, -, -, -, -, -, -, -, -, -, -, e0, e1, e2⟩ := block_index t
  funext y
  have hy0 : (y 0).val < 1 := (y 0).isLt
  have hy1 : (y 1).val < 1 := (y 1).isLt
  have hy2 : (y 2).val < 64 := (y 2).isLt
  have ey : ((cfg0.win 7).xinj (grid0.coords t) y : S1x1x64.Idx)
      = ix3 (0 : Fin 1) (0 : Fin 1) (⟨(y 2).val, hy2⟩ : Fin 64) := by
    funext a; apply Fin.ext
    match a with
    | ⟨0, _⟩ => show (y 0).val = 0; omega
    | ⟨1, _⟩ => show (y 1).val = 0; omega
    | ⟨2, _⟩ => rfl
  show k0_pay1 (F := Ideal) (k0_pay4 (F := Ideal) (iblk m c 2 t)) ((cfg0.win 7).xinj (grid0.coords t) y)
    = countTile m c (((cfg0.win 7).blk t).view.emb y 0) (((cfg0.win 7).blk t).view.emb y 2)
  refine (congrArg (k0_pay1 (F := Ideal) (k0_pay4 (F := Ideal) (iblk m c 2 t))) ey).trans ?_
  refine (count_point m c t ⟨(y 2).val, hy2⟩).trans ?_
  refine countTile_congr m c ?_ ?_
  · show t.val = win0_7.index t 0 * 1 + 1 * (y 0).val; rw [e0]; omega
  · show (y 2).val = win0_7.index t 2 * 64 + 1 * (y 2).val; rw [e2]; omega

/-- An index of the pooled array is in point t's block iff each coordinate is in the block's range on its axis. -/
theorem mem_blk_pooled (t : Fin cfg0.N) (i : S25x64x256.Idx) :
    i ∈ ((cfg0.win 6).blk t).view.set ↔ ∀ a : Fin 3, win0_6.index t a * S1x64x256.size a ≤ (i a).val ∧ (i a).val < win0_6.index t a * S1x64x256.size a + S1x64x256.size a := by
  show i ∈ ((View.whole main_v19_0).slice (win0_6.rect t)).set ↔ _
  rw [View.set_slice_whole, Rect.mem_set_unit]
  exact Iff.rfl

/-- An index of the count array is in point t's block iff each coordinate is in the block's range on its axis. -/
theorem mem_blk_count (t : Fin cfg0.N) (i : S25x1x64.Idx) :
    i ∈ ((cfg0.win 7).blk t).view.set ↔ ∀ a : Fin 3, win0_7.index t a * S1x1x64.size a ≤ (i a).val ∧ (i a).val < win0_7.index t a * S1x1x64.size a + S1x1x64.size a := by
  show i ∈ ((View.whole main_v19_1).slice (win0_7.rect t)).set ↔ _
  rw [View.set_slice_whole, Rect.mem_set_unit]
  exact Iff.rfl

/-- The pooled array after the run. -/
theorem final_pooled (c : Dev nD) :
    (dats (F := Ideal) m 0 c).arrAt 6 cfg0.N = (fun i : S25x64x256.Idx =>
      ∑ r : Fin 4000, (if inGraph (m ((c : Thread nD τ).loc main_arg8)) (row (i 0) r) (i 1) then (1 : EReal) else 0)
        * hiddenK m c (row (i 0) r) (i 2)) := by
  show _ = fun i : S25x64x256.Idx => pooledTile m c (i 0) (i 1) (i 2)
  refine (dats m 0 c).arrAt_eq_of_cover 6 (fun i : S25x64x256.Idx => pooledTile m c (i 0) (i 1) (i 2))
    (fun t _ => flushed_pooled m c t) fun i => ?_
  have hi0 : (i 0).val < 25 := (i 0).isLt
  have hi1 : (i 1).val < 64 := (i 1).isLt
  have hi2 : (i 2).val < 256 := (i 2).isLt
  refine ⟨⟨(i 0).val, lt_of_lt_of_eq hi0 N_0.symm⟩, flush0_6 _, ?_⟩
  obtain ⟨-, -, -, -, -, -, -, -, -, -, -, -, e0, e1, e2, -⟩ := block_index ⟨(i 0).val, lt_of_lt_of_eq hi0 N_0.symm⟩
  have e0' : win0_6.index ⟨(i 0).val, lt_of_lt_of_eq hi0 N_0.symm⟩ 0 = (i 0).val := e0
  rw [mem_blk_pooled]
  intro a
  match a with
  | ⟨0, _⟩ => show win0_6.index ⟨(i 0).val, lt_of_lt_of_eq hi0 N_0.symm⟩ 0 * 1 ≤ (i 0).val ∧ (i 0).val < win0_6.index ⟨(i 0).val, lt_of_lt_of_eq hi0 N_0.symm⟩ 0 * 1 + 1; rw [e0']; omega
  | ⟨1, _⟩ => show win0_6.index ⟨(i 0).val, lt_of_lt_of_eq hi0 N_0.symm⟩ 1 * 64 ≤ (i 1).val ∧ (i 1).val < win0_6.index ⟨(i 0).val, lt_of_lt_of_eq hi0 N_0.symm⟩ 1 * 64 + 64; rw [e1]; omega
  | ⟨2, _⟩ => show win0_6.index ⟨(i 0).val, lt_of_lt_of_eq hi0 N_0.symm⟩ 2 * 256 ≤ (i 2).val ∧ (i 2).val < win0_6.index ⟨(i 0).val, lt_of_lt_of_eq hi0 N_0.symm⟩ 2 * 256 + 256; rw [e2]; omega

/-- The count array after the run. -/
theorem final_count (c : Dev nD) :
    (dats (F := Ideal) m 0 c).arrAt 7 cfg0.N = (fun i : S25x1x64.Idx =>
      ∑ r : Fin 4000, (if inGraph (m ((c : Thread nD τ).loc main_arg8)) (row (i 0) r) (i 2) then (1 : EReal) else 0)) := by
  show _ = fun i : S25x1x64.Idx => countTile m c (i 0) (i 2)
  refine (dats m 0 c).arrAt_eq_of_cover 7 (fun i : S25x1x64.Idx => countTile m c (i 0) (i 2))
    (fun t _ => flushed_count m c t) fun i => ?_
  have hi0 : (i 0).val < 25 := (i 0).isLt
  have hi1 : (i 1).val < 1 := (i 1).isLt
  have hi2 : (i 2).val < 64 := (i 2).isLt
  refine ⟨⟨(i 0).val, lt_of_lt_of_eq hi0 N_0.symm⟩, flush0_7 _, ?_⟩
  obtain ⟨-, -, -, -, -, -, -, -, -, -, -, -, -, -, -, e0, e1, e2⟩ := block_index ⟨(i 0).val, lt_of_lt_of_eq hi0 N_0.symm⟩
  have e0' : win0_7.index ⟨(i 0).val, lt_of_lt_of_eq hi0 N_0.symm⟩ 0 = (i 0).val := e0
  rw [mem_blk_count]
  intro a
  match a with
  | ⟨0, _⟩ => show win0_7.index ⟨(i 0).val, lt_of_lt_of_eq hi0 N_0.symm⟩ 0 * 1 ≤ (i 0).val ∧ (i 0).val < win0_7.index ⟨(i 0).val, lt_of_lt_of_eq hi0 N_0.symm⟩ 0 * 1 + 1; rw [e0']; omega
  | ⟨1, _⟩ => show win0_7.index ⟨(i 0).val, lt_of_lt_of_eq hi0 N_0.symm⟩ 1 * 1 ≤ (i 1).val ∧ (i 1).val < win0_7.index ⟨(i 0).val, lt_of_lt_of_eq hi0 N_0.symm⟩ 1 * 1 + 1; rw [e1]; omega
  | ⟨2, _⟩ => show win0_7.index ⟨(i 0).val, lt_of_lt_of_eq hi0 N_0.symm⟩ 2 * 64 ≤ (i 2).val ∧ (i 2).val < win0_7.index ⟨(i 0).val, lt_of_lt_of_eq hi0 N_0.symm⟩ 2 * 64 + 64; rw [e2]; omega

end Cert.Sage.Blocks

end
-- ==== Proof.Tail.lean ====
/-
  The host operations after the kernel, read at one element of the result: the pooled array and the count array
  are summed over the 25 tiles, the pooled sums divided by max (count, 1), multiplied into the prediction weights and
  the prediction bias added.
-/
import proofs.«415320_j45707041964681_2_alg».proof.Proof.Gen.KernelIdeal.Frame
import proofs.«415320_j45707041964681_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

noncomputable section

open scoped BigOperators
open Idealize.ShloMosaic Idealize.ShloMosaic.TcCoe Idealize.ShloMosaic.ValueIdx Idealize.SL.Sem

namespace Cert.Sage.Tail

open Cert.KernelIdeal Cert.KernelIdeal.Gen Cert.Sage
open Idealize.ShloMosaic.Pipeline (Dat)

variable (m : (ℓ : Loc nD τ sig) → Buf (Elt Ideal) ℓ)

/-- The host operations after the kernel as one function of the two arrays the kernel wrote (P pooled, C counts),
    the prediction weights W and the prediction bias b. -/
def tailTerm (P : FVec Ideal S25x64x256 .f32) (C : FVec Ideal S25x1x64 .f32) (W : FVec Ideal S256x40 .f32) (b : FVec Ideal S40 .f32) :
    FVec Ideal S64x40 .f32 :=
  addf (F := Ideal)
    (Host.dotGeneral (F := Ideal) (φ₁ := .f32) (φ₂ := .f32) dot_S64x256_S256x40_S64x40_1_0_0_1_n_n none
      (Host.divf (F := Ideal)
        (Host.reduceAdd (F := Ideal) P (constant (F := Ideal) S_ .f32 0x00000000#32) reducesTo_S25x64x256_S64x256_d0 h_S_)
        (broadcastInDim S64x256 ![0, 1] bcast_S64x1_S64x256_0_1
          (maximumf (F := Ideal)
            (shapeCast S64x1 (Host.reduceAdd (F := Ideal) C (constant (F := Ideal) S_ .f32 0x00000000#32) reducesTo_S25x1x64_S1x64_d0 h_S_) shapeCasts_S1x64_S64x1)
            (broadcastInDim S64x1 ![] bcast_S_S64x1 (constant (F := Ideal) S_ .f32 0x3F800000#32)))))
      W)
    (broadcastInDim S64x40 ![0, 1] bcast_S1x40_S64x40_0_1 (broadcastInDim S1x40 ![1] bcast_S40_S1x40_1 b))

set_option maxHeartbeats 1000000 in
/-- The result buffer after the host tail is that function of the kernel's two arrays and the launched weights. -/
theorem tail_array (c : Dev nD) (P : S25x64x256.Idx → EReal) (C : S25x1x64.Idx → EReal)
    (hP : (dats (F := Ideal) m 0 c).arrAt 6 cfg0.N = P) (hC : (dats (F := Ideal) m 0 c).arrAt 7 cfg0.N = C) :
    Pipeline.afterTail₀ cfgs (dats (F := Ideal) m) 0 (V0 m) [hostOps1] c main_v30
      = tailTerm P C (m ((c : Thread nD τ).loc main_arg4)) (m ((c : Thread nD τ).loc main_arg5)) := by
  unfold Pipeline.afterTail₀
  show StableHlo.after (hostOps1 (F := Ideal)) _ (Proc.devRef .tc main_v30) = _
  after_results
  have e6 : Pipeline.withArrays (cfgs 0).spec c (V0 m c) (fun w => (dats (F := Ideal) m 0 c).arrAt w (cfgs 0).N) (Proc.devRef .tc main_v19_0) = P :=
    (Pipeline.withArrays_arr spec0 launch0.win.arr_inj c _ _ 6).trans hP
  have e7 : Pipeline.withArrays (cfgs 0).spec c (V0 m c) (fun w => (dats (F := Ideal) m 0 c).arrAt w (cfgs 0).N) (Proc.devRef .tc main_v19_1) = C :=
    (Pipeline.withArrays_arr spec0 launch0.win.arr_inj c _ _ 7).trans hC
  have e4 : Pipeline.withArrays (cfgs 0).spec c (V0 m c) (fun w => (dats (F := Ideal) m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have e5 : Pipeline.withArrays (cfgs 0).spec c (V0 m c) (fun w => (dats (F := Ideal) m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  rw [e6, e7, e4, e5]
  rfl

private theorem dot_lhs0 (i : S64x40.Idx) (q : dot_S64x256_S256x40_S64x40_1_0_0_1_n_n.contr.Idx) :
    (dot_S64x256_S256x40_S64x40_1_0_0_1_n_n.lhsIdx i q 0).val = (i 0).val := by
  unfold DotDims.lhsIdx
  rw [dif_neg (show ¬(0 : Fin S64x256.rank) ∈ dot_S64x256_S256x40_S64x40_1_0_0_1_n_n.lhsBatch by decide),
    dif_pos (show (0 : Fin S64x256.rank) ∈ dot_S64x256_S256x40_S64x40_1_0_0_1_n_n.lhsNonContracting by decide)]
  rfl
private theorem dot_lhs1 (i : S64x40.Idx) (q : dot_S64x256_S256x40_S64x40_1_0_0_1_n_n.contr.Idx) :
    (dot_S64x256_S256x40_S64x40_1_0_0_1_n_n.lhsIdx i q 1).val = (q ⟨0, by decide⟩).val :=
  dot_S64x256_S256x40_S64x40_1_0_0_1_n_n.lhsIdx_val_of_single rfl i q
private theorem dot_rhs0 (i : S64x40.Idx) (q : dot_S64x256_S256x40_S64x40_1_0_0_1_n_n.contr.Idx) :
    (dot_S64x256_S256x40_S64x40_1_0_0_1_n_n.rhsIdx i q 0).val = (q ⟨0, by decide⟩).val :=
  dot_S64x256_S256x40_S64x40_1_0_0_1_n_n.rhsIdx_val_of_single rfl i q
private theorem dot_rhs1 (i : S64x40.Idx) (q : dot_S64x256_S256x40_S64x40_1_0_0_1_n_n.contr.Idx) :
    (dot_S64x256_S256x40_S64x40_1_0_0_1_n_n.rhsIdx i q 1).val = (i 1).val := by
  unfold DotDims.rhsIdx
  rw [dif_neg (show ¬(1 : Fin S256x40.rank) ∈ dot_S64x256_S256x40_S64x40_1_0_0_1_n_n.rhsBatch by decide),
    dif_pos (show (1 : Fin S256x40.rank) ∈ dot_S64x256_S256x40_S64x40_1_0_0_1_n_n.rhsNonContracting by decide)]
  rfl

/-- The contraction's left index at result (g, k) and contraction coordinate j is (g, j). -/
private theorem dot_lhs (g : Fin 64) (k : Fin 40) (j : Fin 256) :
    dot_S64x256_S256x40_S64x40_1_0_0_1_n_n.lhsIdx (ix2 g k)
        ((contrEquiv1 dot_S64x256_S256x40_S64x40_1_0_0_1_n_n 256 rfl rfl).symm j) = ix2 g j := by
  have hj := contrEquiv1_symm_val dot_S64x256_S256x40_S64x40_1_0_0_1_n_n 256 rfl rfl j
  funext a
  refine Fin.ext ?_
  match a with
  | ⟨0, _⟩ => exact dot_lhs0 _ _
  | ⟨1, _⟩ => exact (dot_lhs1 _ _).trans hj

/-- The contraction's right index at result (g, k) and contraction coordinate j is (j, k). -/
private theorem dot_rhs (g : Fin 64) (k : Fin 40) (j : Fin 256) :
    dot_S64x256_S256x40_S64x40_1_0_0_1_n_n.rhsIdx (ix2 g k)
        ((contrEquiv1 dot_S64x256_S256x40_S64x40_1_0_0_1_n_n 256 rfl rfl).symm j) = ix2 j k := by
  have hj := contrEquiv1_symm_val dot_S64x256_S256x40_S64x40_1_0_0_1_n_n 256 rfl rfl j
  funext a
  refine Fin.ext ?_
  match a with
  | ⟨0, _⟩ => exact (dot_rhs0 _ _).trans hj
  | ⟨1, _⟩ => exact dot_rhs1 _ _

/-- The pooled array summed over the tiles, at (g, j). -/
private theorem sumP_apply (P : FVec Ideal S25x64x256 .f32) (g : Fin 64) (j : Fin 256) :
    Host.reduceAdd (F := Ideal) P (constant (F := Ideal) S_ .f32 0x00000000#32) reducesTo_S25x64x256_S64x256_d0 h_S_ (ix2 g j)
      = zeroF + ∑ t : Fin 25, P (ix3 t g j) := by
  have hr : S25x64x256.Reduces [0] S64x256 := by decide
  rw [hostReduceAdd_apply, Ideal.hostReduceAdd_single reducesTo_S25x64x256_S64x256_d0 hr]
  refine congrArg₂ (· + ·) rfl (Finset.sum_congr rfl fun t _ => congrArg P ?_)
  funext a
  refine Fin.ext ?_
  match a with
  | ⟨0, _⟩ => rfl
  | ⟨1, _⟩ => rfl
  | ⟨2, _⟩ => rfl

/-- The count array summed over the tiles, at (0, g). -/
private theorem sumC_apply (C : FVec Ideal S25x1x64 .f32) (g : Fin 64) :
    Host.reduceAdd (F := Ideal) C (constant (F := Ideal) S_ .f32 0x00000000#32) reducesTo_S25x1x64_S1x64_d0 h_S_ (ix2 (0 : Fin 1) g)
      = zeroF + ∑ t : Fin 25, C (ix3 t (0 : Fin 1) g) := by
  have hr : S25x1x64.Reduces [0] S1x64 := by decide
  rw [hostReduceAdd_apply, Ideal.hostReduceAdd_single reducesTo_S25x1x64_S1x64_d0 hr]
  refine congrArg₂ (· + ·) rfl (Finset.sum_congr rfl fun t _ => congrArg C ?_)
  funext a
  refine Fin.ext ?_
  match a with
  | ⟨0, _⟩ => rfl
  | ⟨1, _⟩ => rfl
  | ⟨2, _⟩ => rfl

/-- The host tail read at one element. -/
theorem tailTerm_apply (P : FVec Ideal S25x64x256 .f32) (C : FVec Ideal S25x1x64 .f32) (W : FVec Ideal S256x40 .f32) (b : FVec Ideal S40 .f32)
    (g : Fin 64) (k : Fin 40) :
    tailTerm P C W b (ix2 g k)
      = (∑ j : Fin 256, Ideal.div (zeroF + ∑ t : Fin 25, P (ix3 t g j)) (max (zeroF + ∑ t : Fin 25, C (ix3 t (0 : Fin 1) g)) oneF) * W (ix2 j k))
          + b (ix1 k) := by
  unfold tailTerm
  rw [addf_apply]
  refine congrArg₂ (· + ·) ?_ ?_
  · simp only [Host.dotGeneral]
    rw [Ideal.dotGeneral_apply, ← Equiv.sum_comp (contrEquiv1 dot_S64x256_S256x40_S64x40_1_0_0_1_n_n 256 rfl rfl).symm]
    refine Finset.sum_congr rfl fun j _ => ?_
    rw [dot_lhs, dot_rhs, hostDivf_apply, sumP_apply]
    refine congrArg₂ (· * ·) (congrArg₂ Ideal.div rfl ?_) rfl
    rw [broadcastInDim_apply _ bcast_S64x1_S64x256_0_1 _ (ix2 g j) (ix2 g (0 : Fin 1)) (fun a => match a with
      | ⟨0, _⟩ => by show g.val = if (64 : Nat) = 1 then 0 else g.val; rw [if_neg (by decide)]
      | ⟨1, _⟩ => by show 0 = if (1 : Nat) = 1 then 0 else j.val; rw [if_pos rfl])]
    rw [maximumf_apply]
    refine congrArg₂ max ?_ ?_
    · rw [shapeCast_apply _ shapeCasts_S1x64_S64x1 (ix2 g (0 : Fin 1)) (ix2 (0 : Fin 1) g) (by
        rw [Shape.rowMajor_val_two, Shape.rowMajor_val_two]
        show 0 * 64 + g.val = g.val * 1 + 0
        omega)]
      exact sumC_apply C g
    · rw [broadcastInDim_scalar_apply]
      rfl
  · rw [broadcastInDim_apply _ bcast_S1x40_S64x40_0_1 _ (ix2 g k) (ix2 (0 : Fin 1) k) (fun a => match a with
      | ⟨0, _⟩ => by show 0 = if (1 : Nat) = 1 then 0 else g.val; rw [if_pos rfl]
      | ⟨1, _⟩ => by show k.val = if (40 : Nat) = 1 then 0 else k.val; rw [if_neg (by decide)])]
    rw [broadcastInDim_apply _ bcast_S40_S1x40_1 _ (ix2 (0 : Fin 1) k) (ix1 k) (fun a => match a with
      | ⟨0, _⟩ => by show k.val = if (40 : Nat) = 1 then 0 else k.val; rw [if_neg (by decide)])]

/-- The result buffer after the host tail, from the two arrays the kernel wrote (P the pooled array, C the count array). -/
theorem tail_apply (c : Dev nD) (P : S25x64x256.Idx → EReal) (C : S25x1x64.Idx → EReal)
    (hP : (dats (F := Ideal) m 0 c).arrAt 6 cfg0.N = P) (hC : (dats (F := Ideal) m 0 c).arrAt 7 cfg0.N = C) (g : Fin 64) (k : Fin 40) :
    (Pipeline.afterTail₀ cfgs (dats (F := Ideal) m) 0 (V0 m) [hostOps1] c main_v30 : S64x40.Idx → EReal) (ix2 g k)
      = (∑ j : Fin 256, Ideal.div (zeroF + ∑ t : Fin 25, P (ix3 t g j)) (max (zeroF + ∑ t : Fin 25, C (ix3 t (0 : Fin 1) g)) oneF)
            * (m ((c : Thread nD τ).loc main_arg4) : S256x40.Idx → EReal) (ix2 j k))
          + (m ((c : Thread nD τ).loc main_arg5) : S40.Idx → EReal) (ix1 k) := by
  refine (congrFun (tail_array m c P C hP hC) (ix2 g k)).trans ?_
  exact tailTerm_apply P C _ _ g k

end Cert.Sage.Tail

end
-- ==== Proof.KernelRun.lean ====
/-
  The kernel's run, read: every weakly fair execution ends with the result buffer at the specification's result of
  the launch contents of the arguments (the neighbour sums and in-degrees those the host computes before the region),
  and the arguments unchanged.  The 25 per-tile partial sums the host adds up are the sums over all 100000 nodes.
-/
import proofs.«415320_j45707041964681_2_alg».proof.Proof.Gen.KernelIdeal.Frame
import proofs.«415320_j45707041964681_2_alg».proof.Proof.Spec
import proofs.«415320_j45707041964681_2_alg».proof.Proof.Blocks
import proofs.«415320_j45707041964681_2_alg».proof.Proof.Tail
import Idealize.ShloMosaic.Lib.Pipeline.Value
import Idealize.ShloMosaic.Lib.ValueIdx

noncomputable section

open scoped BigOperators
open Idealize.ShloMosaic Idealize.ShloMosaic.TcCoe Idealize.ShloMosaic.ValueIdx Idealize.SL.Sem

namespace Cert.Sage.KernelRun

open Cert.KernelIdeal Cert.KernelIdeal.Gen Cert.Sage
open Idealize.ShloMosaic.Pipeline (Dat)

variable (m : (ℓ : Loc nD τ sig) → Buf (Elt Ideal) ℓ) (ρ : Dev nD → PrngReg)

/-- The result of the kernel's host tail at graph g, class k is the specification's. -/
theorem kernel_result (c : Dev nD) (g : Fin 64) (k : Fin 40) :
    (Pipeline.afterTail₀ cfgs (dats (F := Ideal) m) 0 (V0 m) [hostOps1] c main_v30 : S64x40.Idx → EReal) (ix2 g k)
      = result (Blocks.hiddenK m c) (m ((c : Thread nD τ).loc main_arg8)) (m ((c : Thread nD τ).loc main_arg4))
          (m ((c : Thread nD τ).loc main_arg5)) g k := by
  rw [Tail.tail_apply m c _ _ (Blocks.final_pooled m c) (Blocks.final_count m c) g k]
  unfold result
  have hp : ∀ j : Fin 256, (zeroF + ∑ t : Fin 25, ∑ r : Fin 4000,
        (if inGraph (m ((c : Thread nD τ).loc main_arg8)) (row t r) g then (1 : EReal) else 0) * Blocks.hiddenK m c (row t r) j)
      = pooledNum (Blocks.hiddenK m c) (m ((c : Thread nD τ).loc main_arg8)) g j := fun j => by
    unfold pooledNum
    rw [zeroF_eq, zero_add, sum_tiles (fun n => (if inGraph (m ((c : Thread nD τ).loc main_arg8)) n g then (1 : EReal) else 0) * Blocks.hiddenK m c n j)]
    refine Finset.sum_congr rfl fun n _ => ?_
    split_ifs
    · rw [one_mul]
    · rw [zero_mul]
  have hc : (zeroF + ∑ t : Fin 25, ∑ r : Fin 4000,
        (if inGraph (m ((c : Thread nD τ).loc main_arg8)) (row t r) g then (1 : EReal) else 0))
      = count (m ((c : Thread nD τ).loc main_arg8)) g := by
    unfold count
    rw [zeroF_eq, zero_add, sum_tiles (fun n => if inGraph (m ((c : Thread nD τ).loc main_arg8)) n g then (1 : EReal) else 0)]
  refine congrArg (· + _) (Finset.sum_congr rfl fun j _ => ?_)
  refine congrArg (· * _) ?_
  exact congrArg₂ Ideal.div (hp j) (congrArg (max · oneF) hc)

/-- The kernel's run with its result named. -/
theorem run : θ_run defs (onTc (τ := τ) (main (F := Ideal))) ⟨m, fun _ => 0, ρ⟩ (fun r => ∀ c : Dev nD,
      r.2.mem ((c.tc : Thread nD τ).loc main_v30) = (fun i : S64x40.Idx =>
          result (Blocks.hiddenK m c) (m ((c : Thread nD τ).loc main_arg8)) (m ((c : Thread nD τ).loc main_arg4))
            (m ((c : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v30 (Pipeline.mem_restRefs_of main_v30 (by decide) (by decide))).trans (funext fun i => by
        obtain ⟨g, k, rfl⟩ : ∃ (g : Fin 64) (k : Fin 40), i = ix2 g k := ⟨i 0, i 1, eq_ix2 i⟩
        exact kernel_result m c g k),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.Sage.KernelRun

end
-- ==== Proof.lean ====
/-
  A GraphSAGE layer with per-graph mean pooling and a linear head, as one fused tile kernel against the plain reference.

  Both programs first form, by the same host operations, the in-degree deg n of every node and the sum agg n of its
  in-neighbours' features.  The hidden activation of node n is
    hidden n j = max (sum_k h n k * Ws k j + sum_k (agg n k / max (deg n) 1) * Wn k j + b j) 0,
  graph g pools the nodes whose graph id is g, and the result is
    result g c = sum_j (pooled g j / max (count g) 1) * Wp j c + bp c.
  The reference pools by scatter-adds over the graph ids: an id outside 0..63 lands nowhere and is dropped.
  The kernel walks the 100000 nodes in 25 tiles of 4000 rows; in each tile it turns the graph ids (carried as floats,
  truncated back to the same integers) into a one-hot matrix, whose product with the tile's hidden activations and whose
  column sums are the tile's share of pooled and count; a row whose id is outside 0..63 has an all-zero one-hot row, so it
  is dropped as well.  The host adds the 25 shares, and over the extended reals a sum over the nodes is the sum of the
  sums over the tiles in any grouping.  No step uses that the inputs are finite: 0 * x = 0 and 1 * x = x hold for every
  extended real, and only commutativity and associativity of addition regroup the sums.
-/
import proofs.«415320_j45707041964681_2_alg».proof.Defs
import proofs.«415320_j45707041964681_2_alg».proof.Proof.Gen.Kernel
import proofs.«415320_j45707041964681_2_alg».proof.Proof.Gen.Kernel.Skeleton
import proofs.«415320_j45707041964681_2_alg».proof.Proof.Gen.Kernel.Launch
import proofs.«415320_j45707041964681_2_alg».proof.Proof.Gen.Kernel.Points
import proofs.«415320_j45707041964681_2_alg».proof.Proof.Gen.Kernel.Frame
import proofs.«415320_j45707041964681_2_alg».proof.Proof.Gen.KernelIdeal
import proofs.«415320_j45707041964681_2_alg».proof.Proof.Gen.KernelIdeal.Skeleton
import proofs.«415320_j45707041964681_2_alg».proof.Proof.Gen.KernelIdeal.Launch
import proofs.«415320_j45707041964681_2_alg».proof.Proof.Gen.KernelIdeal.Points
import proofs.«415320_j45707041964681_2_alg».proof.Proof.Gen.KernelIdeal.Frame
import proofs.«415320_j45707041964681_2_alg».proof.Proof.Gen.ReferenceIdeal
import proofs.«415320_j45707041964681_2_alg».proof.Proof.Gen.Pre_finite_inputs
import proofs.«415320_j45707041964681_2_alg».proof.Proof.Gen.ReferenceIdeal.Run
import proofs.«415320_j45707041964681_2_alg».proof.Proof.Gen.ReferenceIdeal.Read
import proofs.«415320_j45707041964681_2_alg».proof.Proof.Spec
import proofs.«415320_j45707041964681_2_alg».proof.Proof.AggDeg
import proofs.«415320_j45707041964681_2_alg».proof.Proof.RefValue
import proofs.«415320_j45707041964681_2_alg».proof.Proof.KernelRun
import Idealize.ShloMosaic.Adequacy
import Idealize.ShloMosaic.Init
import Idealize.ShloMosaic.Lib.ValueIdx

noncomputable section

namespace Cert.Proof

open Idealize.ShloMosaic Idealize.ShloMosaic.TcCoe Idealize.SL.Sem Idealize.ShloMosaic.ValueIdx

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's result of the same arguments: the kernel by its run read tile by tile,
    the reference by its stages read at an element, the neighbour sums and in-degrees the same host terms on both sides. -/
theorem algebraic : Cert.algebraic_KernelIdeal_ReferenceIdeal := by
  intro m ρ m' ρ' _ hagree
  refine ⟨fun c => (fun i : Cert.KernelIdeal.S64x40.Idx =>
      Cert.Sage.result (Cert.Sage.Blocks.hiddenK m c) (m ((c : Thread Cert.KernelIdeal.nD Cert.KernelIdeal.τ).loc Cert.KernelIdeal.main_arg8))
        (m ((c : Thread Cert.KernelIdeal.nD Cert.KernelIdeal.τ).loc Cert.KernelIdeal.main_arg4))
        (m ((c : Thread Cert.KernelIdeal.nD Cert.KernelIdeal.τ).loc Cert.KernelIdeal.main_arg5)) (i 0) (i 1)),
    Cert.Sage.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v41_eq, h0, h1, h2, h3, h4, h5, h6, h7, h8]
  funext i
  obtain ⟨g, k, rfl⟩ : ∃ (g : Fin 64) (k : Fin 40), i = ix2 g k := ⟨i 0, i 1, eq_ix2 i⟩
  rw [Cert.Sage.RefValue.ref_result, ← Cert.Sage.AggDeg.agg_eq m c, ← Cert.Sage.AggDeg.deg_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
